-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x4096x2 : Shape := ⟨4, ![1, 64, 4096, 2]⟩
abbrev S64x2x256 : Shape := ⟨3, ![64, 2, 256]⟩
abbrev S64x256 : Shape := ⟨2, ![64, 256]⟩
abbrev S64x256x256 : Shape := ⟨3, ![64, 256, 256]⟩
abbrev S64x256x3 : Shape := ⟨3, ![64, 256, 3]⟩
abbrev S64x3 : Shape := ⟨2, ![64, 3]⟩
abbrev S_ : Shape := ⟨0, ![]⟩

class Facts : Prop where
  bcast_S_S1x64x4096x2 : S_.BroadcastsInDim S1x64x4096x2 (![] : Fin 0 → Fin S1x64x4096x2.rank)
  reducesTo_S1x64x4096x2_S_d0_1_2_3 : S1x64x4096x2.ReducesTo [0, 1, 2, 3] S_
  h_S_ : 0 < S_.numel
  bcast_S_S64x2x256 : S_.BroadcastsInDim S64x2x256 (![] : Fin 0 → Fin S64x2x256.rank)
  reducesTo_S64x2x256_S_d0_1_2 : S64x2x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x3 : S_.BroadcastsInDim S64x256x3 (![] : Fin 0 → Fin S64x256x3.rank)
  reducesTo_S64x256x3_S_d0_1_2 : S64x256x3.ReducesTo [0, 1, 2] S_
  bcast_S_S64x3 : S_.BroadcastsInDim S64x3 (![] : Fin 0 → Fin S64x3.rank)
  reducesTo_S64x3_S_d0_1 : S64x3.ReducesTo [0, 1] S_

variable [Facts]

def fn_part3 {F : FTy → Type} [FloatOps F] (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  main_v53

def fn_part2 {F : FTy → Type} [FloatOps F] (main_arg7 : FVec F S64x256x256 .f32) (main_arg8 : FVec F S64x256 .f32) (main_arg9 : FVec F S64x256x3 .f32) (main_arg10 : FVec F S64x3 .f32) (main_v33 : IVec S_ 1) : IVec S_ 1 :=
  let main_v34 : FVec F S64x256x256 .f32 := Host.absf main_arg7
  let main_cst_12 : FVec F S_ .f32 := constant S_ .f32 0x7F800000#32
  let main_v35 : FVec F S64x256x256 .f32 := broadcastInDim S64x256x256 ![] bcast_S_S64x256x256 main_cst_12
  let main_v36 : IVec S64x256x256 1 := cmpf .olt main_v34 main_v35
  let main_c_13 : IVec S_ 1 := constantI S_ 1 1#1
  let main_v37 : IVec S_ 1 := (fun x v => Host.reduce IntOp.andi x v reducesTo_S64x256x256_S_d0_1_2 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64x256x3 .f32 := Host.absf main_arg9
  let main_cst_16 : FVec F S_ .f32 := constant S_ .f32 0x7F800000#32
  let main_v45 : FVec F S64x256x3 .f32 := broadcastInDim S64x256x3 ![] bcast_S_S64x256x3 main_cst_16
  let main_v46 : IVec S64x256x3 1 := cmpf .olt main_v44 main_v45
  let main_c_17 : IVec S_ 1 := constantI S_ 1 1#1
  let main_v47 : IVec S_ 1 := (fun x v => Host.reduce IntOp.andi x v reducesTo_S64x256x3_S_d0_1_2 h_S_) main_v46 main_c_17
  let main_v48 : IVec S_ 1 := andi main_v43 main_v47
  let main_v49 : FVec F S64x3 .f32 := Host.absf main_arg10
  let main_cst_18 : FVec F S_ .f32 := constant S_ .f32 0x7F800000#32
  let main_v50 : FVec F S64x3 .f32 := broadcastInDim S64x3 ![] bcast_S_S64x3 main_cst_18
  fn_part3 (F := F) main_v48 main_v49 main_v50

def fn_part1 {F : FTy → Type} [FloatOps F] (main_arg4 : FVec F S64x256 .f32) (main_arg5 : FVec F S64x256x256 .f32) (main_arg6 : FVec F S64x256 .f32) (main_arg7 : FVec F S64x256x256 .f32) (main_arg8 : FVec F S64x256 .f32) (main_arg9 : FVec F S64x256x3 .f32) (main_arg10 : FVec F S64x3 .f32) (main_v13 : IVec S_ 1) (main_v16 : IVec S64x256x256 1) : IVec S_ 1 :=
  let main_c_5 : IVec S_ 1 := constantI S_ 1 1#1
  let main_v17 : IVec S_ 1 := (fun x v => Host.reduce IntOp.andi x v reducesTo_S64x256x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256x256 .f32 := Host.absf main_arg5
  let main_cst_8 : FVec F S_ .f32 := constant S_ .f32 0x7F800000#32
  let main_v25 : FVec F S64x256x256 .f32 := broadcastInDim S64x256x256 ![] bcast_S_S64x256x256 main_cst_8
  let main_v26 : IVec S64x256x256 1 := cmpf .olt main_v24 main_v25
  let main_c_9 : IVec S_ 1 := constantI S_ 1 1#1
  let main_v27 : IVec S_ 1 := (fun x v => Host.reduce IntOp.andi x v reducesTo_S64x256x256_S_d0_1_2 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x64x4096x2 .f32) (main_arg1 : FVec F S64x2x256 .f32) (main_arg2 : FVec F S64x256 .f32) (main_arg3 : FVec F S64x256x256 .f32) (main_arg4 : FVec F S64x256 .f32) (main_arg5 : FVec F S64x256x256 .f32) (main_arg6 : FVec F S64x256 .f32) (main_arg7 : FVec F S64x256x256 .f32) (main_arg8 : FVec F S64x256 .f32) (main_arg9 : FVec F S64x256x3 .f32) (main_arg10 : FVec F S64x3 .f32) : IVec S_ 1 :=
  let main_v0 : FVec F S1x64x4096x2 .f32 := Host.absf main_arg0
  let main_cst : FVec F S_ .f32 := constant S_ .f32 0x7F800000#32
  let main_v1 : FVec F S1x64x4096x2 .f32 := broadcastInDim S1x64x4096x2 ![] bcast_S_S1x64x4096x2 main_cst
  let main_v2 : IVec S1x64x4096x2 1 := cmpf .olt main_v0 main_v1
  let main_c : IVec S_ 1 := constantI S_ 1 1#1
  let main_v3 : IVec S_ 1 := (fun x v => Host.reduce IntOp.andi x v reducesTo_S1x64x4096x2_S_d0_1_2_3 h_S_) main_v2 main_c
  let main_v4 : FVec F S64x2x256 .f32 := Host.absf main_arg1
  let main_cst_0 : FVec F S_ .f32 := constant S_ .f32 0x7F800000#32
  let main_v5 : FVec F S64x2x256 .f32 := broadcastInDim S64x2x256 ![] bcast_S_S64x2x256 main_cst_0
  let main_v6 : IVec S64x2x256 1 := cmpf .olt main_v4 main_v5
  let main_c_1 : IVec S_ 1 := constantI S_ 1 1#1
  let main_v7 : IVec S_ 1 := (fun x v => Host.reduce IntOp.andi x v reducesTo_S64x2x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256x256 .f32 := Host.absf main_arg3
  let main_cst_4 : FVec F S_ .f32 := constant S_ .f32 0x7F800000#32
  let main_v15 : FVec F S64x256x256 .f32 := broadcastInDim S64x256x256 ![] bcast_S_S64x256x256 main_cst_4
  let main_v16 : IVec S64x256x256 1 := cmpf .olt main_v14 main_v15
  fn_part1 (F := F) main_arg4 main_arg5 main_arg6 main_arg7 main_arg8 main_arg9 main_arg10 main_v13 main_v16
-- ==== Kernel.lean ====
abbrev S1x64x4096x2 : Shape := ⟨4, ![1, 64, 4096, 2]⟩
abbrev S64x2x256 : Shape := ⟨3, ![64, 2, 256]⟩
abbrev S64x256 : Shape := ⟨2, ![64, 256]⟩
abbrev S64x256x256 : Shape := ⟨3, ![64, 256, 256]⟩
abbrev S64x256x3 : Shape := ⟨3, ![64, 256, 3]⟩
abbrev S64x3 : Shape := ⟨2, ![64, 3]⟩
abbrev S64x4096x2 : Shape := ⟨3, ![64, 4096, 2]⟩
abbrev S64x2x4096 : Shape := ⟨3, ![64, 2, 4096]⟩
abbrev S64x256x2 : Shape := ⟨3, ![64, 256, 2]⟩
abbrev S64x3x256 : Shape := ⟨3, ![64, 3, 256]⟩
abbrev S64x256x1 : Shape := ⟨3, ![64, 256, 1]⟩
abbrev S64x3x1 : Shape := ⟨3, ![64, 3, 1]⟩
abbrev S64x3x4096 : Shape := ⟨3, ![64, 3, 4096]⟩
abbrev S4x2x4096 : Shape := ⟨3, ![4, 2, 4096]⟩
abbrev S4x256x2 : Shape := ⟨3, ![4, 256, 2]⟩
abbrev S4x256x1 : Shape := ⟨3, ![4, 256, 1]⟩
abbrev S4x256x256 : Shape := ⟨3, ![4, 256, 256]⟩
abbrev S4x3x256 : Shape := ⟨3, ![4, 3, 256]⟩
abbrev S4x3x1 : Shape := ⟨3, ![4, 3, 1]⟩
abbrev S4x3x4096 : Shape := ⟨3, ![4, 3, 4096]⟩
abbrev S1x2x4096 : Shape := ⟨3, ![1, 2, 4096]⟩
abbrev S2x4096 : Shape := ⟨2, ![2, 4096]⟩
abbrev S1x256x2 : Shape := ⟨3, ![1, 256, 2]⟩
abbrev S256x2 : Shape := ⟨2, ![256, 2]⟩
abbrev S256x4096 : Shape := ⟨2, ![256, 4096]⟩
abbrev S1x256x1 : Shape := ⟨3, ![1, 256, 1]⟩
abbrev S256x1 : Shape := ⟨2, ![256, 1]⟩
abbrev S1x256x256 : Shape := ⟨3, ![1, 256, 256]⟩
abbrev S256x256 : Shape := ⟨2, ![256, 256]⟩
abbrev S1x3x256 : Shape := ⟨3, ![1, 3, 256]⟩
abbrev S3x256 : Shape := ⟨2, ![3, 256]⟩
abbrev S3x4096 : Shape := ⟨2, ![3, 4096]⟩
abbrev S1x3x1 : Shape := ⟨3, ![1, 3, 1]⟩
abbrev S3x1 : Shape := ⟨2, ![3, 1]⟩
abbrev S1x3x4096 : Shape := ⟨3, ![1, 3, 4096]⟩
abbrev S64x4096x3 : Shape := ⟨3, ![64, 4096, 3]⟩
abbrev S1x64x4096x3 : Shape := ⟨4, ![1, 64, 4096, 3]⟩

abbrev nBuf : Space → Nat
  | .hbm => 26
  | .vmem => 24
  | .smem => 0
  | _ => 0

abbrev bufTy : (tb : Table) → Fin (tcTables nBuf tb) → BufTy
  | .hbm, ⟨0, _⟩ => ⟨S1x64x4096x2, .f32⟩
  | .hbm, ⟨1, _⟩ => ⟨S64x2x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x256, .f32⟩
  | .hbm, ⟨8, _⟩ => ⟨S64x256, .f32⟩
  | .hbm, ⟨9, _⟩ => ⟨S64x256x3, .f32⟩
  | .hbm, ⟨10, _⟩ => ⟨S64x3, .f32⟩
  | .hbm, ⟨11, _⟩ => ⟨S64x4096x2, .f32⟩
  | .hbm, ⟨12, _⟩ => ⟨S64x2x4096, .f32⟩
  | .hbm, ⟨13, _⟩ => ⟨S64x256x2, .f32⟩
  | .hbm, ⟨14, _⟩ => ⟨S64x256x256, .f32⟩
  | .hbm, ⟨15, _⟩ => ⟨S64x256x256, .f32⟩
  | .hbm, ⟨16, _⟩ => ⟨S64x256x256, .f32⟩
  | .hbm, ⟨17, _⟩ => ⟨S64x3x256, .f32⟩
  | .hbm, ⟨18, _⟩ => ⟨S64x256x1, .f32⟩
  | .hbm, ⟨19, _⟩ => ⟨S64x256x1, .f32⟩
  | .hbm, ⟨20, _⟩ => ⟨S64x256x1, .f32⟩
  | .hbm, ⟨21, _⟩ => ⟨S64x256x1, .f32⟩
  | .hbm, ⟨22, _⟩ => ⟨S64x3x1, .f32⟩
  | .hbm, ⟨23, _⟩ => ⟨S64x3x4096, .f32⟩
  | .hbm, ⟨24, _⟩ => ⟨S64x4096x3, .f32⟩
  | .hbm, ⟨25, _⟩ => ⟨S1x64x4096x3, .f32⟩
  | .local _ .vmem, ⟨0, _⟩ => ⟨S4x2x4096, .f32⟩
  | .local _ .vmem, ⟨1, _⟩ => ⟨S4x2x4096, .f32⟩
  | .local _ .vmem, ⟨2, _⟩ => ⟨S4x256x2, .f32⟩
  | .local _ .vmem, ⟨3, _⟩ => ⟨S4x256x2, .f32⟩
  | .local _ .vmem, ⟨4, _⟩ => ⟨S4x256x1, .f32⟩
  | .local _ .vmem, ⟨5, _⟩ => ⟨S4x256x1, .f32⟩
  | .local _ .vmem, ⟨6, _⟩ => ⟨S4x256x256, .f32⟩
  | .local _ .vmem, ⟨7, _⟩ => ⟨S4x256x256, .f32⟩
  | .local _ .vmem, ⟨8, _⟩ => ⟨S4x256x1, .f32⟩
  | .local _ .vmem, ⟨9, _⟩ => ⟨S4x256x1, .f32⟩
  | .local _ .vmem, ⟨10, _⟩ => ⟨S4x256x256, .f32⟩
  | .local _ .vmem, ⟨11, _⟩ => ⟨S4x256x256, .f32⟩
  | .local _ .vmem, ⟨12, _⟩ => ⟨S4x256x1, .f32⟩
  | .local _ .vmem, ⟨13, _⟩ => ⟨S4x256x1, .f32⟩
  | .local _ .vmem, ⟨14, _⟩ => ⟨S4x256x256, .f32⟩
  | .local _ .vmem, ⟨15, _⟩ => ⟨S4x256x256, .f32⟩
  | .local _ .vmem, ⟨16, _⟩ => ⟨S4x256x1, .f32⟩
  | .local _ .vmem, ⟨17, _⟩ => ⟨S4x256x1, .f32⟩
  | .local _ .vmem, ⟨18, _⟩ => ⟨S4x3x256, .f32⟩
  | .local _ .vmem, ⟨19, _⟩ => ⟨S4x3x256, .f32⟩
  | .local _ .vmem, ⟨20, _⟩ => ⟨S4x3x1, .f32⟩
  | .local _ .vmem, ⟨21, _⟩ => ⟨S4x3x1, .f32⟩
  | .local _ .vmem, ⟨22, _⟩ => ⟨S4x3x4096, .f32⟩
  | .local _ .vmem, ⟨23, _⟩ => ⟨S4x3x4096, .f32⟩
  | _, _ => ⟨S1x64x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x3x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x3x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1x64x4096x2_S64x4096x2 : S1x64x4096x2.ShapeCasts S64x4096x2
  transposes_S64x4096x2_S64x2x4096_0_2_1 : S64x4096x2.Transposes [0, 2, 1] S64x2x4096
  transposes_S64x2x256_S64x256x2_0_2_1 : S64x2x256.Transposes [0, 2, 1] S64x256x2
  transposes_S64x256x256_S64x256x256_0_2_1 : S64x256x256.Transposes [0, 2, 1] S64x256x256
  transposes_S64x256x3_S64x3x256_0_2_1 : S64x256x3.Transposes [0, 2, 1] S64x3x256
  shapeCasts_S64x256_S64x256x1 : S64x256.ShapeCasts S64x256x1
  shapeCasts_S64x3_S64x3x1 : S64x3.ShapeCasts S64x3x1
  inb_S4x2x4096_S1x2x4096_0_0_0 : ∀ a, (![0, 0, 0] : Fin 3 → Nat) a + S1x2x4096.size a ≤ S4x2x4096.size a
  h_S1x2x4096 : 0 < S1x2x4096.numel
  shapeCasts_S1x2x4096_S2x4096 : S1x2x4096.ShapeCasts S2x4096
  inb_S4x256x2_S1x256x2_0_0_0 : ∀ a, (![0, 0, 0] : Fin 3 → Nat) a + S1x256x2.size a ≤ S4x256x2.size a
  h_S1x256x2 : 0 < S1x256x2.numel
  shapeCasts_S1x256x2_S256x2 : S1x256x2.ShapeCasts S256x2
  inb_S4x256x1_S1x256x1_0_0_0 : ∀ a, (![0, 0, 0] : Fin 3 → Nat) a + S1x256x1.size a ≤ S4x256x1.size a
  h_S1x256x1 : 0 < S1x256x1.numel
  shapeCasts_S1x256x1_S256x1 : S1x256x1.ShapeCasts S256x1
  broadcasts_S256x1_S256x4096 : S256x1.Broadcasts S256x4096
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x3x256_S1x3x256_0_0_0 : ∀ a, (![0, 0, 0] : Fin 3 → Nat) a + S1x3x256.size a ≤ S4x3x256.size a
  h_S1x3x256 : 0 < S1x3x256.numel
  shapeCasts_S1x3x256_S3x256 : S1x3x256.ShapeCasts S3x256
  inb_S4x3x1_S1x3x1_0_0_0 : ∀ a, (![0, 0, 0] : Fin 3 → Nat) a + S1x3x1.size a ≤ S4x3x1.size a
  h_S1x3x1 : 0 < S1x3x1.numel
  shapeCasts_S1x3x1_S3x1 : S1x3x1.ShapeCasts S3x1
  broadcasts_S3x1_S3x4096 : S3x1.Broadcasts S3x4096
  inb_S4x2x4096_S1x2x4096_1_0_0 : ∀ a, (![1, 0, 0] : Fin 3 → Nat) a + S1x2x4096.size a ≤ S4x2x4096.size a
  inb_S4x256x2_S1x256x2_1_0_0 : ∀ a, (![1, 0, 0] : Fin 3 → Nat) a + S1x256x2.size a ≤ S4x256x2.size a
  inb_S4x256x1_S1x256x1_1_0_0 : ∀ a, (![1, 0, 0] : Fin 3 → Nat) a + S1x256x1.size a ≤ S4x256x1.size a
  inb_S4x256x256_S1x256x256_1_0_0 : ∀ a, (![1, 0, 0] : Fin 3 → Nat) a + S1x256x256.size a ≤ S4x256x256.size a
  inb_S4x3x256_S1x3x256_1_0_0 : ∀ a, (![1, 0, 0] : Fin 3 → Nat) a + S1x3x256.size a ≤ S4x3x256.size a
  inb_S4x3x1_S1x3x1_1_0_0 : ∀ a, (![1, 0, 0] : Fin 3 → Nat) a + S1x3x1.size a ≤ S4x3x1.size a
  inb_S4x2x4096_S1x2x4096_2_0_0 : ∀ a, (![2, 0, 0] : Fin 3 → Nat) a + S1x2x4096.size a ≤ S4x2x4096.size a
  inb_S4x256x2_S1x256x2_2_0_0 : ∀ a, (![2, 0, 0] : Fin 3 → Nat) a + S1x256x2.size a ≤ S4x256x2.size a
  inb_S4x256x1_S1x256x1_2_0_0 : ∀ a, (![2, 0, 0] : Fin 3 → Nat) a + S1x256x1.size a ≤ S4x256x1.size a
  inb_S4x256x256_S1x256x256_2_0_0 : ∀ a, (![2, 0, 0] : Fin 3 → Nat) a + S1x256x256.size a ≤ S4x256x256.size a
  inb_S4x3x256_S1x3x256_2_0_0 : ∀ a, (![2, 0, 0] : Fin 3 → Nat) a + S1x3x256.size a ≤ S4x3x256.size a
  inb_S4x3x1_S1x3x1_2_0_0 : ∀ a, (![2, 0, 0] : Fin 3 → Nat) a + S1x3x1.size a ≤ S4x3x1.size a
  inb_S4x2x4096_S1x2x4096_3_0_0 : ∀ a, (![3, 0, 0] : Fin 3 → Nat) a + S1x2x4096.size a ≤ S4x2x4096.size a
  inb_S4x256x2_S1x256x2_3_0_0 : ∀ a, (![3, 0, 0] : Fin 3 → Nat) a + S1x256x2.size a ≤ S4x256x2.size a
  inb_S4x256x1_S1x256x1_3_0_0 : ∀ a, (![3, 0, 0] : Fin 3 → Nat) a + S1x256x1.size a ≤ S4x256x1.size a
  inb_S4x256x256_S1x256x256_3_0_0 : ∀ a, (![3, 0, 0] : Fin 3 → Nat) a + S1x256x256.size a ≤ S4x256x256.size a
  inb_S4x3x256_S1x3x256_3_0_0 : ∀ a, (![3, 0, 0] : Fin 3 → Nat) a + S1x3x256.size a ≤ S4x3x256.size a
  inb_S4x3x1_S1x3x1_3_0_0 : ∀ a, (![3, 0, 0] : Fin 3 → Nat) a + S1x3x1.size a ≤ S4x3x1.size a
  shapeCasts_S3x4096_S1x3x4096 : S3x4096.ShapeCasts S1x3x4096
  concatenates_S1x3x4096_S1x3x4096_S1x3x4096_S1x3x4096_S4x3x4096_d0 : Shape.Concatenates [S1x3x4096, S1x3x4096, S1x3x4096, S1x3x4096] S4x3x4096 0
  inb_S4x3x4096_S4x3x4096_0_0_0 : ∀ a, (![0, 0, 0] : Fin 3 → Nat) a + S4x3x4096.size a ≤ S4x3x4096.size a
  h_S4x3x4096 : 0 < S4x3x4096.numel
  transposes_S64x3x4096_S64x4096x3_0_2_1 : S64x3x4096.Transposes [0, 2, 1] S64x4096x3
  bcast_S64x4096x3_S1x64x4096x3_1_2_3 : S64x4096x3.BroadcastsInDim S1x64x4096x3 (![1, 2, 3] : Fin 3 → Fin S1x64x4096x3.rank)
  dot_S256x2_S2x4096_S256x4096_1_0_0_1_n_n_wf : DotDims.WF S256x2 S2x4096 S256x4096 [1] [0] [0] [1] [] []
  dot_S256x256_S256x4096_S256x4096_1_0_0_1_n_n_wf : DotDims.WF S256x256 S256x4096 S256x4096 [1] [0] [0] [1] [] []
  dot_S3x256_S256x4096_S3x4096_1_0_0_1_n_n_wf : DotDims.WF S3x256 S256x4096 S3x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x4096.size a ≤ S64x2x4096.size a
  hwx0_0 : ∀ i : grid0.Coords, EltTy.bits .f32 = 32 ∨ (Rect.block (s := S64x2x4096) S4x2x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x2.size a ≤ S64x256x2.size a
  hwx0_1 : ∀ i : grid0.Coords, EltTy.bits .f32 = 32 ∨ (Rect.block (s := S64x256x2) S4x256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1.size a ≤ S64x256x1.size a
  hwx0_2 : ∀ i : grid0.Coords, EltTy.bits .f32 = 32 ∨ (Rect.block (s := S64x256x1) S4x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S64x256x256.size a
  hwx0_3 : ∀ i : grid0.Coords, EltTy.bits .f32 = 32 ∨ (Rect.block (s := S64x256x256) S4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x1.size a ≤ S64x256x1.size a
  hwx0_4 : ∀ i : grid0.Coords, EltTy.bits .f32 = 32 ∨ (Rect.block (s := S64x256x1) S4x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S64x256x256.size a
  hwx0_5 : ∀ i : grid0.Coords, EltTy.bits .f32 = 32 ∨ (Rect.block (s := S64x256x256) S4x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x1.size a ≤ S64x256x1.size a
  hwx0_6 : ∀ i : grid0.Coords, EltTy.bits .f32 = 32 ∨ (Rect.block (s := S64x256x1) S4x256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S64x256x256.size a
  hwx0_7 : ∀ i : grid0.Coords, EltTy.bits .f32 = 32 ∨ (Rect.block (s := S64x256x256) S4x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x1.size a ≤ S64x256x1.size a
  hwx0_8 : ∀ i : grid0.Coords, EltTy.bits .f32 = 32 ∨ (Rect.block (s := S64x256x1) S4x256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x3x256.size a ≤ S64x3x256.size a
  hwx0_9 : ∀ i : grid0.Coords, EltTy.bits .f32 = 32 ∨ (Rect.block (s := S64x3x256) S4x3x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x3x1.size a ≤ S64x3x1.size a
  hwx0_10 : ∀ i : grid0.Coords, EltTy.bits .f32 = 32 ∨ (Rect.block (s := S64x3x1) S4x3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x3x4096.size a ≤ S64x3x4096.size a
  hwx0_11 : ∀ i : grid0.Coords, EltTy.bits .f32 = 32 ∨ (Rect.block (s := S64x3x4096) S4x3x4096.size (cc0_transform_11 i) (hinb0_11 i)).WholeWords (EltTy.packing .f32)

variable [Facts₀]

def dot_S256x2_S2x4096_S256x4096_1_0_0_1_n_n : DotDims S256x2 S2x4096 S256x4096 where
  lhsContracting := [1]
  rhsContracting := [0]
  lhsNonContracting := [0]
  rhsNonContracting := [1]
  lhsBatch := []
  rhsBatch := []
  wf := dot_S256x2_S2x4096_S256x4096_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S3x256_S256x4096_S3x4096_1_0_0_1_n_n : DotDims S3x256 S256x4096 S3x4096 where
  lhsContracting := [1]
  rhsContracting := [0]
  lhsNonContracting := [0]
  rhsNonContracting := [1]
  lhsBatch := []
  rhsBatch := []
  wf := dot_S3x256_S256x4096_S3x4096_1_0_0_1_n_n_wf

abbrev win0_0 : Pipeline.Window sig grid0 :=
  Pipeline.Window.ofSpec (Memref.whole main_v1) S4x2x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S4x256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4x256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4x256x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S4x3x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S4x3x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12) S4x3x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x64x4096x2 : Shape := ⟨4, ![1, 64, 4096, 2]⟩
abbrev S64x2x256 : Shape := ⟨3, ![64, 2, 256]⟩
abbrev S64x256 : Shape := ⟨2, ![64, 256]⟩
abbrev S64x256x256 : Shape := ⟨3, ![64, 256, 256]⟩
abbrev S64x256x3 : Shape := ⟨3, ![64, 256, 3]⟩
abbrev S64x3 : Shape := ⟨2, ![64, 3]⟩
abbrev S64x4096x2 : Shape := ⟨3, ![64, 4096, 2]⟩
abbrev S64x4096x256 : Shape := ⟨3, ![64, 4096, 256]⟩
abbrev S64x1x256 : Shape := ⟨3, ![64, 1, 256]⟩
abbrev S_ : Shape := ⟨0, ![]⟩
abbrev S64x4096x3 : Shape := ⟨3, ![64, 4096, 3]⟩
abbrev S64x1x3 : Shape := ⟨3, ![64, 1, 3]⟩
abbrev S1x64x4096x3 : Shape := ⟨4, ![1, 64, 4096, 3]⟩

abbrev nBuf : Space → Nat
  | .hbm => 49
  | .vmem => 0
  | .smem => 0
  | _ => 0

abbrev bufTy : (tb : Table) → Fin (tcTables nBuf tb) → BufTy
  | .hbm, ⟨0, _⟩ => ⟨S1x64x4096x2, .f32⟩
  | .hbm, ⟨1, _⟩ => ⟨S64x2x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x256, .f32⟩
  | .hbm, ⟨8, _⟩ => ⟨S64x256, .f32⟩
  | .hbm, ⟨9, _⟩ => ⟨S64x256x3, .f32⟩
  | .hbm, ⟨10, _⟩ => ⟨S64x3, .f32⟩
  | .hbm, ⟨11, _⟩ => ⟨S64x4096x2, .f32⟩
  | .hbm, ⟨12, _⟩ => ⟨S64x4096x256, .f32⟩
  | .hbm, ⟨13, _⟩ => ⟨S64x1x256, .f32⟩
  | .hbm, ⟨14, _⟩ => ⟨S64x4096x256, .f32⟩
  | .hbm, ⟨15, _⟩ => ⟨S64x4096x256, .f32⟩
  | .hbm, ⟨16, _⟩ => ⟨S_, .f32⟩
  | .hbm, ⟨17, _⟩ => ⟨S64x4096x256, .f32⟩
  | .hbm, ⟨18, _⟩ => ⟨S64x4096x256, .f32⟩
  | .hbm, ⟨19, _⟩ => ⟨S64x4096x256, .f32⟩
  | .hbm, ⟨20, _⟩ => ⟨S64x4096x256, .f32⟩
  | .hbm, ⟨21, _⟩ => ⟨S64x1x256, .f32⟩
  | .hbm, ⟨22, _⟩ => ⟨S64x4096x256, .f32⟩
  | .hbm, ⟨23, _⟩ => ⟨S64x4096x256, .f32⟩
  | .hbm, ⟨24, _⟩ => ⟨S_, .f32⟩
  | .hbm, ⟨25, _⟩ => ⟨S64x4096x256, .f32⟩
  | .hbm, ⟨26, _⟩ => ⟨S64x4096x256, .f32⟩
  | .hbm, ⟨27, _⟩ => ⟨S64x4096x256, .f32⟩
  | .hbm, ⟨28, _⟩ => ⟨S64x4096x256, .f32⟩
  | .hbm, ⟨29, _⟩ => ⟨S64x1x256, .f32⟩
  | .hbm, ⟨30, _⟩ => ⟨S64x4096x256, .f32⟩
  | .hbm, ⟨31, _⟩ => ⟨S64x4096x256, .f32⟩
  | .hbm, ⟨32, _⟩ => ⟨S_, .f32⟩
  | .hbm, ⟨33, _⟩ => ⟨S64x4096x256, .f32⟩
  | .hbm, ⟨34, _⟩ => ⟨S64x4096x256, .f32⟩
  | .hbm, ⟨35, _⟩ => ⟨S64x4096x256, .f32⟩
  | .hbm, ⟨36, _⟩ => ⟨S64x4096x256, .f32⟩
  | .hbm, ⟨37, _⟩ => ⟨S64x1x256, .f32⟩
  | .hbm, ⟨38, _⟩ => ⟨S64x4096x256, .f32⟩
  | .hbm, ⟨39, _⟩ => ⟨S64x4096x256, .f32⟩
  | .hbm, ⟨40, _⟩ => ⟨S_, .f32⟩
  | .hbm, ⟨41, _⟩ => ⟨S64x4096x256, .f32⟩
  | .hbm, ⟨42, _⟩ => ⟨S64x4096x256, .f32⟩
  | .hbm, ⟨43, _⟩ => ⟨S64x4096x256, .f32⟩
  | .hbm, ⟨44, _⟩ => ⟨S64x4096x3, .f32⟩
  | .hbm, ⟨45, _⟩ => ⟨S64x1x3, .f32⟩
  | .hbm, ⟨46, _⟩ => ⟨S64x4096x3, .f32⟩
  | .hbm, ⟨47, _⟩ => ⟨S64x4096x3, .f32⟩
  | .hbm, ⟨48, _⟩ => ⟨S1x64x4096x3, .f32⟩
  | _, _ => ⟨S1x64x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  shapeCasts_S1x64x4096x2_S64x4096x2 : S1x64x4096x2.ShapeCasts S64x4096x2
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x3_S64x1x3_0_2 : S64x3.BroadcastsInDim S64x1x3 (![0, 2] : Fin 2 → Fin S64x1x3.rank)
  bcast_S64x1x3_S64x4096x3_0_1_2 : S64x1x3.BroadcastsInDim S64x4096x3 (![0, 1, 2] : Fin 3 → Fin S64x4096x3.rank)
  bcast_S64x4096x3_S1x64x4096x3_1_2_3 : S64x4096x3.BroadcastsInDim S1x64x4096x3 (![1, 2, 3] : Fin 3 → Fin S1x64x4096x3.rank)
  dot_S64x4096x2_S64x2x256_S64x4096x256_2_1_1_2_0_0_wf : DotDims.WF S64x4096x2 S64x2x256 S64x4096x256 [2] [1] [1] [2] [0] [0]
  dot_S64x4096x256_S64x256x256_S64x4096x256_2_1_1_2_0_0_wf : DotDims.WF S64x4096x256 S64x256x256 S64x4096x256 [2] [1] [1] [2] [0] [0]
  dot_S64x4096x256_S64x256x3_S64x4096x3_2_1_1_2_0_0_wf : DotDims.WF S64x4096x256 S64x256x3 S64x4096x3 [2] [1] [1] [2] [0] [0]

variable [Facts₀]

def dot_S64x4096x2_S64x2x256_S64x4096x256_2_1_1_2_0_0 : DotDims S64x4096x2 S64x2x256 S64x4096x256 where
  lhsContracting := [2]
  rhsContracting := [1]
  lhsNonContracting := [1]
  rhsNonContracting := [2]
  lhsBatch := [0]
  rhsBatch := [0]
  wf := dot_S64x4096x2_S64x2x256_S64x4096x256_2_1_1_2_0_0_wf
def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf
def dot_S64x4096x256_S64x256x3_S64x4096x3_2_1_1_2_0_0 : DotDims S64x4096x256 S64x256x3 S64x4096x3 where
  lhsContracting := [2]
  rhsContracting := [1]
  lhsNonContracting := [1]
  rhsNonContracting := [2]
  lhsBatch := [0]
  rhsBatch := [0]
  wf := dot_S64x4096x256_S64x256x3_S64x4096x3_2_1_1_2_0_0_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.Siren.lean ====
/-
  A grouped sine network at one point, on the extended reals.

  One group of the network takes a point x with two coordinates through four hidden layers of width 256, each an
  affine map followed by the sine of thirty times its value, and then through one affine map to three outputs:

    net x = A4 (s (A3 (s (A2 (s (A1 (s (A0 x))))))))     where (A w b x) j = (sum over k of w j k * x k) + b j
                                                          and   (s v) j = sin (30 * v j).

  The weights are written output-major (w j k: output j, input k).  Nothing here depends on a program: the functions
  are over plain index types, and the two lemmas at the end read one affine layer, as a vector expression of the plain
  matrix product into the zero array plus a bias column broadcast along the second axis, at one entry.
-/
import Idealize.ShloMosaic.PureOps.Ideal.Laws
import Idealize.ShloMosaic.Lib.ValueIdx
import Idealize.ShloMosaic.Lib.Pipeline.Value
import proofs.«424906_j73607149519468_4_alg».proof.Proof.LibPlainDot

noncomputable section

namespace Cert.Siren

open Idealize.ShloMosaic Idealize.ShloMosaic.ValueIdx

/-- The frequency, as the float word both programs carry (thirty). -/
abbrev freq : EReal := Ideal.ofBits .f32 0x41F00000#32

/-- One affine layer at one point: output j is the contraction of row j of the weights with the input, plus the bias. -/
def affine {K M : Nat} (w : Fin M → Fin K → EReal) (b : Fin M → EReal) (x : Fin K → EReal) : Fin M → EReal :=
  fun j => (∑ k : Fin K, w j k * x k) + b j

/-- The activation: the sine of the frequency times each entry. -/
def wave {M : Nat} (v : Fin M → EReal) : Fin M → EReal := fun j => Ideal.sin (freq * v j)

/-- One group's network at one point. -/
def net (w0 : Fin 256 → Fin 2 → EReal) (b0 : Fin 256 → EReal) (w1 : Fin 256 → Fin 256 → EReal) (b1 : Fin 256 → EReal)
    (w2 : Fin 256 → Fin 256 → EReal) (b2 : Fin 256 → EReal) (w3 : Fin 256 → Fin 256 → EReal) (b3 : Fin 256 → EReal)
    (w4 : Fin 3 → Fin 256 → EReal) (b4 : Fin 3 → EReal) (x : Fin 2 → EReal) : Fin 3 → EReal :=
  affine w4 b4 (wave (affine w3 b3 (wave (affine w2 b2 (wave (affine w1 b1 (wave (affine w0 b0 x))))))))

variable (M K N : Nat)

/-- An affine layer over a whole block of points, as vectors: the weights times the block of inputs (one column per
    point) into the zero array, plus the bias column broadcast over the points.  Its column at point n is the affine
    layer of the input's column at n. -/
theorem affine_column (d : DotDims ⟨2, ![M, K]⟩ ⟨2, ![K, N]⟩ ⟨2, ![M, N]⟩) (hd : d = DotDims.plain M K N)
    (W : FVec Ideal ⟨2, ![M, K]⟩ .f32) (X : FVec Ideal ⟨2, ![K, N]⟩ .f32) (B : FVec Ideal ⟨2, ![M, 1]⟩ .f32)
    (hb : (⟨2, ![M, 1]⟩ : Shape).Broadcasts ⟨2, ![M, N]⟩) (n : Fin N) :
    (fun j : Fin M => addf (matmul d none W X (constant ⟨2, ![M, N]⟩ .f32 0x00000000#32)) (broadcastTo ⟨2, ![M, N]⟩ B hb) (ix2 j n))
      = affine (fun j k => W (ix2 j k)) (fun j => B (ix2 j 0)) (fun k => X (ix2 k n)) := by
  subst hd
  funext j
  show matmul (DotDims.plain M K N) none W X (constant ⟨2, ![M, N]⟩ .f32 0x00000000#32) (ix2 j n)
      + broadcastTo ⟨2, ![M, N]⟩ B hb (ix2 j n) = _
  rw [Cert.LibPlainDot.matmul_plain_zero, Cert.LibPlainDot.broadcast_col]
  rfl

/-- The same layer followed by the activation, as vectors: the frequency splat over the block times the layer, then
    the sine.  Its column at point n is the activation of the affine layer of the input's column at n. -/
theorem wave_affine_column (d : DotDims ⟨2, ![M, K]⟩ ⟨2, ![K, N]⟩ ⟨2, ![M, N]⟩) (hd : d = DotDims.plain M K N)
    (W : FVec Ideal ⟨2, ![M, K]⟩ .f32) (X : FVec Ideal ⟨2, ![K, N]⟩ .f32) (B : FVec Ideal ⟨2, ![M, 1]⟩ .f32)
    (hb : (⟨2, ![M, 1]⟩ : Shape).Broadcasts ⟨2, ![M, N]⟩) (n : Fin N) :
    (fun j : Fin M => sin (mulf (broadcast ⟨2, ![M, N]⟩ (Scalar.ofBits .f32 0x41F00000#32))
        (addf (matmul d none W X (constant ⟨2, ![M, N]⟩ .f32 0x00000000#32)) (broadcastTo ⟨2, ![M, N]⟩ B hb))) (ix2 j n))
      = wave (affine (fun j k => W (ix2 j k)) (fun j => B (ix2 j 0)) (fun k => X (ix2 k n))) := by
  rw [← affine_column M K N d hd W X B hb n]
  rfl

end Cert.Siren

end
-- ==== Proof.KernelGroup.lean ====
/-
  One group of the kernel's body, as vectors over a whole block of 4096 points, and its column at one point.

  The body treats the four groups of a grid point alike.  For one group it loads the group's slab of every operand (a
  leading axis of extent one), drops that axis, and computes, with the points along the second axis,

    h0 = sin (30 * (W0 X + b0)),  h1 = sin (30 * (W1 h0 + b1)),  h2, h3 likewise,  out = W4 h3 + b4

  where each product is accumulated into the zero array and each bias is a column broadcast over the points.  Column n
  of every layer depends only on column n of the layer before, so column n of out is the network of Siren.lean at the
  point X(., n), with the weights and biases read off the slabs.
-/
import proofs.«424906_j73607149519468_4_alg».proof.KernelIdeal
import proofs.«424906_j73607149519468_4_alg».proof.Proof.Siren
import Idealize.ShloMosaic.Lib.ValueLayout

noncomputable section

namespace Cert.KernelIdeal.Group

open Idealize.ShloMosaic Idealize.ShloMosaic.ValueIdx Cert.KernelIdeal Cert.KernelIdeal.Facts₀ Cert.Siren

variable {F : FTy → Type} [FloatOps F] [Facts]

/-- The first hidden layer of one group: two inputs per point. -/
def first (x : Vec F S1x2x4096 .f32) (w : Vec F S1x256x2 .f32) (b : Vec F S1x256x1 .f32) : FVec F S256x4096 .f32 :=
  sin (mulf (broadcast S256x4096 (Scalar.ofBits .f32 0x41F00000#32))
    (addf (matmul dot_S256x2_S2x4096_S256x4096_1_0_0_1_n_n none (shapeCast S256x2 w shapeCasts_S1x256x2_S256x2)
        (shapeCast S2x4096 x shapeCasts_S1x2x4096_S2x4096) (constant S256x4096 .f32 0x00000000#32))
      (broadcastTo S256x4096 (shapeCast S256x1 b shapeCasts_S1x256x1_S256x1) broadcasts_S256x1_S256x4096)))

/-- A later hidden layer of one group: 256 inputs per point. -/
def hidden (h : FVec F S256x4096 .f32) (w : Vec F S1x256x256 .f32) (b : Vec F S1x256x1 .f32) : FVec F S256x4096 .f32 :=
  sin (mulf (broadcast S256x4096 (Scalar.ofBits .f32 0x41F00000#32))
    (addf (matmul dot_S256x256_S256x4096_S256x4096_1_0_0_1_n_n none (shapeCast S256x256 w shapeCasts_S1x256x256_S256x256)
        h (constant S256x4096 .f32 0x00000000#32))
      (broadcastTo S256x4096 (shapeCast S256x1 b shapeCasts_S1x256x1_S256x1) broadcasts_S256x1_S256x4096)))

/-- The output layer of one group: three outputs per point, no activation. -/
def outer (h : FVec F S256x4096 .f32) (w : Vec F S1x3x256 .f32) (b : Vec F S1x3x1 .f32) : FVec F S3x4096 .f32 :=
  addf (matmul dot_S3x256_S256x4096_S3x4096_1_0_0_1_n_n none (shapeCast S3x256 w shapeCasts_S1x3x256_S3x256)
      h (constant S3x4096 .f32 0x00000000#32))
    (broadcastTo S3x4096 (shapeCast S3x1 b shapeCasts_S1x3x1_S3x1) broadcasts_S3x1_S3x4096)

/-- One group's whole computation. -/
def group (x : Vec F S1x2x4096 .f32) (w0 : Vec F S1x256x2 .f32) (b0 : Vec F S1x256x1 .f32)
    (w1 : Vec F S1x256x256 .f32) (b1 : Vec F S1x256x1 .f32) (w2 : Vec F S1x256x256 .f32) (b2 : Vec F S1x256x1 .f32)
    (w3 : Vec F S1x256x256 .f32) (b3 : Vec F S1x256x1 .f32) (w4 : Vec F S1x3x256 .f32) (b4 : Vec F S1x3x1 .f32) :
    FVec F S3x4096 .f32 :=
  outer (hidden (hidden (hidden (first x w0 b0) w1 b1) w2 b2) w3 b3) w4 b4

/-- Column n of the first hidden layer is the activated affine layer of the point's two coordinates. -/
theorem first_column (x : Vec Ideal S1x2x4096 .f32) (w : Vec Ideal S1x256x2 .f32) (b : Vec Ideal S1x256x1 .f32) (n : Fin 4096) :
    (fun j : Fin 256 => first x w b (ix2 j n))
      = wave (affine (fun j k => w (ix3 0 j k)) (fun j => b (ix3 0 j 0)) (fun k => x (ix3 0 k n))) :=
  (wave_affine_column 256 2 4096 _ rfl _ _ _ _ n).trans (by simp only [shapeCast_1ab_ab_apply])

/-- Column n of a later hidden layer is the activated affine layer of column n of its input. -/
theorem hidden_column (h : FVec Ideal S256x4096 .f32) (w : Vec Ideal S1x256x256 .f32) (b : Vec Ideal S1x256x1 .f32) (n : Fin 4096) :
    (fun j : Fin 256 => hidden h w b (ix2 j n))
      = wave (affine (fun j k => w (ix3 0 j k)) (fun j => b (ix3 0 j 0)) (fun k => h (ix2 k n))) :=
  (wave_affine_column 256 256 4096 _ rfl _ _ _ _ n).trans (by simp only [shapeCast_1ab_ab_apply])

/-- Column n of the output layer is the affine layer of column n of its input. -/
theorem outer_column (h : FVec Ideal S256x4096 .f32) (w : Vec Ideal S1x3x256 .f32) (b : Vec Ideal S1x3x1 .f32) (n : Fin 4096) :
    (fun o : Fin 3 => outer h w b (ix2 o n))
      = affine (fun o k => w (ix3 0 o k)) (fun o => b (ix3 0 o 0)) (fun k => h (ix2 k n)) :=
  (affine_column 3 256 4096 _ rfl _ _ _ _ n).trans (by simp only [shapeCast_1ab_ab_apply])

/-- Column n of one group's result is the network at the point's coordinates. -/
theorem group_column (x : Vec Ideal S1x2x4096 .f32) (w0 : Vec Ideal S1x256x2 .f32) (b0 : Vec Ideal S1x256x1 .f32)
    (w1 : Vec Ideal S1x256x256 .f32) (b1 : Vec Ideal S1x256x1 .f32) (w2 : Vec Ideal S1x256x256 .f32) (b2 : Vec Ideal S1x256x1 .f32)
    (w3 : Vec Ideal S1x256x256 .f32) (b3 : Vec Ideal S1x256x1 .f32) (w4 : Vec Ideal S1x3x256 .f32) (b4 : Vec Ideal S1x3x1 .f32)
    (n : Fin 4096) :
    (fun o : Fin 3 => group x w0 b0 w1 b1 w2 b2 w3 b3 w4 b4 (ix2 o n))
      = net (fun j k => w0 (ix3 0 j k)) (fun j => b0 (ix3 0 j 0)) (fun j k => w1 (ix3 0 j k)) (fun j => b1 (ix3 0 j 0))
          (fun j k => w2 (ix3 0 j k)) (fun j => b2 (ix3 0 j 0)) (fun j k => w3 (ix3 0 j k)) (fun j => b3 (ix3 0 j 0))
          (fun o k => w4 (ix3 0 o k)) (fun o => b4 (ix3 0 o 0)) (fun k => x (ix3 0 k n)) := by
  unfold group net
  rw [outer_column, hidden_column, hidden_column, hidden_column, first_column]

/-- The same, with the slabs' entries named: whatever functions the slabs' entries are, column n of the group's result
    is the network over those functions. -/
theorem group_column_of (x : Vec Ideal S1x2x4096 .f32) (w0 : Vec Ideal S1x256x2 .f32) (b0 : Vec Ideal S1x256x1 .f32)
    (w1 : Vec Ideal S1x256x256 .f32) (b1 : Vec Ideal S1x256x1 .f32) (w2 : Vec Ideal S1x256x256 .f32) (b2 : Vec Ideal S1x256x1 .f32)
    (w3 : Vec Ideal S1x256x256 .f32) (b3 : Vec Ideal S1x256x1 .f32) (w4 : Vec Ideal S1x3x256 .f32) (b4 : Vec Ideal S1x3x1 .f32)
    (n : Fin 4096)
    (W0 : Fin 256 → Fin 2 → EReal) (B0 : Fin 256 → EReal) (W1 : Fin 256 → Fin 256 → EReal) (B1 : Fin 256 → EReal)
    (W2 : Fin 256 → Fin 256 → EReal) (B2 : Fin 256 → EReal) (W3 : Fin 256 → Fin 256 → EReal) (B3 : Fin 256 → EReal)
    (W4 : Fin 3 → Fin 256 → EReal) (B4 : Fin 3 → EReal) (X : Fin 2 → EReal)
    (hW0 : ∀ j k, w0 (ix3 0 j k) = W0 j k) (hB0 : ∀ j, b0 (ix3 0 j 0) = B0 j)
    (hW1 : ∀ j k, w1 (ix3 0 j k) = W1 j k) (hB1 : ∀ j, b1 (ix3 0 j 0) = B1 j)
    (hW2 : ∀ j k, w2 (ix3 0 j k) = W2 j k) (hB2 : ∀ j, b2 (ix3 0 j 0) = B2 j)
    (hW3 : ∀ j k, w3 (ix3 0 j k) = W3 j k) (hB3 : ∀ j, b3 (ix3 0 j 0) = B3 j)
    (hW4 : ∀ p k, w4 (ix3 0 p k) = W4 p k) (hB4 : ∀ p, b4 (ix3 0 p 0) = B4 p)
    (hX : ∀ k, x (ix3 0 k n) = X k) :
    (fun o : Fin 3 => group x w0 b0 w1 b1 w2 b2 w3 b3 w4 b4 (ix2 o n)) = net W0 B0 W1 B1 W2 B2 W3 B3 W4 B4 X := by
  obtain rfl : (fun j k => w0 (ix3 0 j k)) = W0 := funext fun j => funext fun k => hW0 j k
  obtain rfl : (fun j => b0 (ix3 0 j 0)) = B0 := funext hB0
  obtain rfl : (fun j k => w1 (ix3 0 j k)) = W1 := funext fun j => funext fun k => hW1 j k
  obtain rfl : (fun j => b1 (ix3 0 j 0)) = B1 := funext hB1
  obtain rfl : (fun j k => w2 (ix3 0 j k)) = W2 := funext fun j => funext fun k => hW2 j k
  obtain rfl : (fun j => b2 (ix3 0 j 0)) = B2 := funext hB2
  obtain rfl : (fun j k => w3 (ix3 0 j k)) = W3 := funext fun j => funext fun k => hW3 j k
  obtain rfl : (fun j => b3 (ix3 0 j 0)) = B3 := funext hB3
  obtain rfl : (fun p k => w4 (ix3 0 p k)) = W4 := funext fun p => funext fun k => hW4 p k
  obtain rfl : (fun p => b4 (ix3 0 p 0)) = B4 := funext hB4
  obtain rfl : (fun k => x (ix3 0 k n)) = X := funext hX
  exact group_column x w0 b0 w1 b1 w2 b2 w3 b3 w4 b4 n

end Cert.KernelIdeal.Group

end
-- ==== Proof.KernelBlock.lean ====
/-
  What the kernel's body stores at one grid point, read at an entry.

  The body's one store writes the whole output block [4, 3, 4096]: the results of the block's four groups, each cast
  from [3, 4096] to [1, 3, 4096], stacked along the leading axis.  Group g's result is computed from slab g (leading
  coordinate g) of each of the eleven operand blocks.  So entry (g, o, n) of the stored block is output o of the network
  at point n of group g of the block, with that group's weights and biases.
-/
import proofs.«424906_j73607149519468_4_alg».proof.Proof.Gen.KernelIdeal.Frame
import proofs.«424906_j73607149519468_4_alg».proof.Proof.KernelGroup
import Idealize.ShloMosaic.Lib.Pipeline.Value
import Idealize.ShloMosaic.Lib.ValueLayout

noncomputable section

namespace Cert.KernelIdeal.Block

open Idealize.ShloMosaic Idealize.ShloMosaic.ValueIdx Cert.KernelIdeal Cert.KernelIdeal.Gen
open Cert.KernelIdeal.Group Cert.Siren

variable {F : FTy → Type} [FloatOps F]

/-- A load of slab g of a rank-three array (extent one on the leading axis, everything on the other two) reads, at
    (0, j, k), the array at (g, j, k). -/
theorem ld_slab {Val : EltTy → Type} {e : EltTy} {A B C : Nat} (X : (⟨3, ![A, B, C]⟩ : Shape).Idx → Val e) (g : Fin A)
    (inb : ∀ a, (![g.val, 0, 0] : Fin 3 → Nat) a + (![1, B, C] : Fin 3 → Nat) a ≤ (⟨3, ![A, B, C]⟩ : Shape).size a)
    (j : Fin B) (k : Fin C) :
    View.ld X (Rect.unit (s := ⟨3, ![A, B, C]⟩) ![g.val, 0, 0] ![1, B, C] inb) (ix3 (0 : Fin 1) j k) = X (ix3 g j k) :=
  congrArg X (funext fun a => Fin.ext (by
    match a with
    | ⟨0, _⟩ => show g.val + 1 * 0 = g.val; omega
    | ⟨1, _⟩ => show 0 + 1 * j.val = j.val; omega
    | ⟨2, _⟩ => show 0 + 1 * k.val = k.val; omega))

/-- The four groups' results, each from its slab of the operand blocks, stacked along the leading axis. -/
def stacked (x0 : Vec F S4x2x4096 .f32) (x1 : Vec F S4x256x2 .f32) (x2 : Vec F S4x256x1 .f32) (x3 : Vec F S4x256x256 .f32)
    (x4 : Vec F S4x256x1 .f32) (x5 : Vec F S4x256x256 .f32) (x6 : Vec F S4x256x1 .f32) (x7 : Vec F S4x256x256 .f32)
    (x8 : Vec F S4x256x1 .f32) (x9 : Vec F S4x3x256 .f32) (x10 : Vec F S4x3x1 .f32) : FVec F S4x3x4096 .f32 :=
  concatenate S4x3x4096 0
    [⟨S1x3x4096, shapeCast S1x3x4096 (group (View.ld x0 r0_0) (View.ld x1 r0_1) (View.ld x2 r0_2) (View.ld x3 r0_3)
        (View.ld x4 r0_2) (View.ld x5 r0_3) (View.ld x6 r0_2) (View.ld x7 r0_3) (View.ld x8 r0_2) (View.ld x9 r0_4)
        (View.ld x10 r0_5)) Facts₀.shapeCasts_S3x4096_S1x3x4096⟩,
     ⟨S1x3x4096, shapeCast S1x3x4096 (group (View.ld x0 r0_6) (View.ld x1 r0_7) (View.ld x2 r0_8) (View.ld x3 r0_9)
        (View.ld x4 r0_8) (View.ld x5 r0_9) (View.ld x6 r0_8) (View.ld x7 r0_9) (View.ld x8 r0_8) (View.ld x9 r0_10)
        (View.ld x10 r0_11)) Facts₀.shapeCasts_S3x4096_S1x3x4096⟩,
     ⟨S1x3x4096, shapeCast S1x3x4096 (group (View.ld x0 r0_12) (View.ld x1 r0_13) (View.ld x2 r0_14) (View.ld x3 r0_15)
        (View.ld x4 r0_14) (View.ld x5 r0_15) (View.ld x6 r0_14) (View.ld x7 r0_15) (View.ld x8 r0_14) (View.ld x9 r0_16)
        (View.ld x10 r0_17)) Facts₀.shapeCasts_S3x4096_S1x3x4096⟩,
     ⟨S1x3x4096, shapeCast S1x3x4096 (group (View.ld x0 r0_18) (View.ld x1 r0_19) (View.ld x2 r0_20) (View.ld x3 r0_21)
        (View.ld x4 r0_20) (View.ld x5 r0_21) (View.ld x6 r0_20) (View.ld x7 r0_21) (View.ld x8 r0_20) (View.ld x9 r0_22)
        (View.ld x10 r0_23)) Facts₀.shapeCasts_S3x4096_S1x3x4096⟩]
    Facts₀.concatenates_S1x3x4096_S1x3x4096_S1x3x4096_S1x3x4096_S4x3x4096_d0

theorem zero_offsets : (![0, 0, 0] : Fin S4x3x4096.rank → Nat) = fun _ => 0 := by
  funext a; match a with | ⟨0, _⟩ => rfl | ⟨1, _⟩ => rfl | ⟨2, _⟩ => rfl

/-- The output block the body leaves is the stack: its one store covers the block, and its payload is the body's
    arithmetic regrouped group by group. -/
theorem out_eq_stacked (x0 : Vec F S4x2x4096 .f32) (x1 : Vec F S4x256x2 .f32) (x2 : Vec F S4x256x1 .f32) (x3 : Vec F S4x256x256 .f32)
    (x4 : Vec F S4x256x1 .f32) (x5 : Vec F S4x256x256 .f32) (x6 : Vec F S4x256x1 .f32) (x7 : Vec F S4x256x256 .f32)
    (x8 : Vec F S4x256x1 .f32) (x9 : Vec F S4x3x256 .f32) (x10 : Vec F S4x3x1 .f32) :
    out0_11 x0 x1 x2 x3 x4 x5 x6 x7 x8 x9 x10 = stacked x0 x1 x2 x3 x4 x5 x6 x7 x8 x9 x10 := by
  unfold out0_11
  rw [View.canon_unit_zero zero_offsets]
  rfl

/-- Entry (g, o, n) of the stack: piece g of the four, at (0, o, n); that piece is group g's result with its leading unit
    axis put back, so it is entry (o, n) of the group's result: output o of the network at point n, with slab g of every
    operand block. -/
theorem stacked_apply (x0 : Vec Ideal S4x2x4096 .f32) (x1 : Vec Ideal S4x256x2 .f32) (x2 : Vec Ideal S4x256x1 .f32)
    (x3 : Vec Ideal S4x256x256 .f32) (x4 : Vec Ideal S4x256x1 .f32) (x5 : Vec Ideal S4x256x256 .f32) (x6 : Vec Ideal S4x256x1 .f32)
    (x7 : Vec Ideal S4x256x256 .f32) (x8 : Vec Ideal S4x256x1 .f32) (x9 : Vec Ideal S4x3x256 .f32) (x10 : Vec Ideal S4x3x1 .f32)
    (g : Fin 4) (o : Fin 3) (n : Fin 4096) :
    stacked x0 x1 x2 x3 x4 x5 x6 x7 x8 x9 x10 (ix3 g o n)
      = net (fun j k => x1 (ix3 g j k)) (fun j => x2 (ix3 g j 0)) (fun j k => x3 (ix3 g j k)) (fun j => x4 (ix3 g j 0))
          (fun j k => x5 (ix3 g j k)) (fun j => x6 (ix3 g j 0)) (fun j k => x7 (ix3 g j k)) (fun j => x8 (ix3 g j 0))
          (fun p k => x9 (ix3 g p k)) (fun p => x10 (ix3 g p 0)) (fun k => x0 (ix3 g k n)) o := by
  unfold stacked
  match g with
  | ⟨0, hg⟩ =>
    refine Eq.trans (concatenate_apply_piece (0 : Fin 3) _ _ (ix3 (⟨0, hg⟩ : Fin 4) o n) 0 (by show (0 : Nat) < 4; decide) S1x3x4096 _ rfl rfl 0 rfl (ix3 (0 : Fin 1) o n)
      (fun b hb => by match b with | ⟨0, _⟩ => exact absurd rfl hb | ⟨1, _⟩ => rfl | ⟨2, _⟩ => rfl) rfl) ?_
    rw [shapeCast_ab_1ab_apply]
    exact congrFun (group_column_of _ _ _ _ _ _ _ _ _ _ _ n _ _ _ _ _ _ _ _ _ _ _
      (fun j k => ld_slab x1 ⟨0, hg⟩ _ j k) (fun j => ld_slab x2 ⟨0, hg⟩ _ j 0)
      (fun j k => ld_slab x3 ⟨0, hg⟩ _ j k) (fun j => ld_slab x4 ⟨0, hg⟩ _ j 0)
      (fun j k => ld_slab x5 ⟨0, hg⟩ _ j k) (fun j => ld_slab x6 ⟨0, hg⟩ _ j 0)
      (fun j k => ld_slab x7 ⟨0, hg⟩ _ j k) (fun j => ld_slab x8 ⟨0, hg⟩ _ j 0)
      (fun p k => ld_slab x9 ⟨0, hg⟩ _ p k) (fun p => ld_slab x10 ⟨0, hg⟩ _ p 0)
      (fun k => ld_slab x0 ⟨0, hg⟩ _ k n)) o
  | ⟨1, hg⟩ =>
    refine Eq.trans (concatenate_apply_piece (0 : Fin 3) _ _ (ix3 (⟨1, hg⟩ : Fin 4) o n) 1 (by show (1 : Nat) < 4; decide) S1x3x4096 _ rfl rfl 1 rfl (ix3 (0 : Fin 1) o n)
      (fun b hb => by match b with | ⟨0, _⟩ => exact absurd rfl hb | ⟨1, _⟩ => rfl | ⟨2, _⟩ => rfl) rfl) ?_
    rw [shapeCast_ab_1ab_apply]
    exact congrFun (group_column_of _ _ _ _ _ _ _ _ _ _ _ n _ _ _ _ _ _ _ _ _ _ _
      (fun j k => ld_slab x1 ⟨1, hg⟩ _ j k) (fun j => ld_slab x2 ⟨1, hg⟩ _ j 0)
      (fun j k => ld_slab x3 ⟨1, hg⟩ _ j k) (fun j => ld_slab x4 ⟨1, hg⟩ _ j 0)
      (fun j k => ld_slab x5 ⟨1, hg⟩ _ j k) (fun j => ld_slab x6 ⟨1, hg⟩ _ j 0)
      (fun j k => ld_slab x7 ⟨1, hg⟩ _ j k) (fun j => ld_slab x8 ⟨1, hg⟩ _ j 0)
      (fun p k => ld_slab x9 ⟨1, hg⟩ _ p k) (fun p => ld_slab x10 ⟨1, hg⟩ _ p 0)
      (fun k => ld_slab x0 ⟨1, hg⟩ _ k n)) o
  | ⟨2, hg⟩ =>
    refine Eq.trans (concatenate_apply_piece (0 : Fin 3) _ _ (ix3 (⟨2, hg⟩ : Fin 4) o n) 2 (by show (2 : Nat) < 4; decide) S1x3x4096 _ rfl rfl 2 rfl (ix3 (0 : Fin 1) o n)
      (fun b hb => by match b with | ⟨0, _⟩ => exact absurd rfl hb | ⟨1, _⟩ => rfl | ⟨2, _⟩ => rfl) rfl) ?_
    rw [shapeCast_ab_1ab_apply]
    exact congrFun (group_column_of _ _ _ _ _ _ _ _ _ _ _ n _ _ _ _ _ _ _ _ _ _ _
      (fun j k => ld_slab x1 ⟨2, hg⟩ _ j k) (fun j => ld_slab x2 ⟨2, hg⟩ _ j 0)
      (fun j k => ld_slab x3 ⟨2, hg⟩ _ j k) (fun j => ld_slab x4 ⟨2, hg⟩ _ j 0)
      (fun j k => ld_slab x5 ⟨2, hg⟩ _ j k) (fun j => ld_slab x6 ⟨2, hg⟩ _ j 0)
      (fun j k => ld_slab x7 ⟨2, hg⟩ _ j k) (fun j => ld_slab x8 ⟨2, hg⟩ _ j 0)
      (fun p k => ld_slab x9 ⟨2, hg⟩ _ p k) (fun p => ld_slab x10 ⟨2, hg⟩ _ p 0)
      (fun k => ld_slab x0 ⟨2, hg⟩ _ k n)) o
  | ⟨3, hg⟩ =>
    refine Eq.trans (concatenate_apply_piece (0 : Fin 3) _ _ (ix3 (⟨3, hg⟩ : Fin 4) o n) 3 (by show (3 : Nat) < 4; decide) S1x3x4096 _ rfl rfl 3 rfl (ix3 (0 : Fin 1) o n)
      (fun b hb => by match b with | ⟨0, _⟩ => exact absurd rfl hb | ⟨1, _⟩ => rfl | ⟨2, _⟩ => rfl) rfl) ?_
    rw [shapeCast_ab_1ab_apply]
    exact congrFun (group_column_of _ _ _ _ _ _ _ _ _ _ _ n _ _ _ _ _ _ _ _ _ _ _
      (fun j k => ld_slab x1 ⟨3, hg⟩ _ j k) (fun j => ld_slab x2 ⟨3, hg⟩ _ j 0)
      (fun j k => ld_slab x3 ⟨3, hg⟩ _ j k) (fun j => ld_slab x4 ⟨3, hg⟩ _ j 0)
      (fun j k => ld_slab x5 ⟨3, hg⟩ _ j k) (fun j => ld_slab x6 ⟨3, hg⟩ _ j 0)
      (fun j k => ld_slab x7 ⟨3, hg⟩ _ j k) (fun j => ld_slab x8 ⟨3, hg⟩ _ j 0)
      (fun p k => ld_slab x9 ⟨3, hg⟩ _ p k) (fun p => ld_slab x10 ⟨3, hg⟩ _ p 0)
      (fun k => ld_slab x0 ⟨3, hg⟩ _ k n)) o

end Cert.KernelIdeal.Block

end
-- ==== Proof.KernelArrays.lean ====
/-
  The operand arrays as the kernel's region finds them, read at an entry.

  Before the call the host lays the arguments out for the kernel: the points [1, 64, 4096, 2] lose their leading unit
  axis and have their last two axes swapped, so that the 4096 points of a group lie along the last axis; every weight
  array [64, I, O] has its last two axes swapped to [64, O, I], output-major; every bias [64, O] gets a trailing unit
  axis, [64, O, 1], a column per group.  Each of these arrays, at an entry, is the argument at the matching entry.
-/
import proofs.«424906_j73607149519468_4_alg».proof.Proof.Gen.KernelIdeal.Frame
import Idealize.ShloMosaic.Lib.StableHlo.Run
import Idealize.ShloMosaic.Lib.ValueLayout

noncomputable section

namespace Cert.KernelIdeal.Arrays

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- A rank-two array given a trailing unit axis reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The points as launched: coordinate k of point n of group g. -/
theorem points_at (c : Dev nD) (g : Fin 64) (k : Fin 2) (n : Fin 4096) :
    (V m c main_v1 : S64x2x4096.Idx → Elt Ideal .f32) (ix3 g k n) = m ((c : Thread nD τ).loc main_arg0) (ix4 (0 : Fin 1) g n k) := by
  have e : (V m c main_v1 : S64x2x4096.Idx → Elt Ideal .f32)
      = transpose S64x2x4096 [0, 2, 1] (shapeCast S64x4096x2 (m ((c : Thread nD τ).loc main_arg0)) Facts₀.shapeCasts_S1x64x4096x2_S64x4096x2)
          Facts₀.transposes_S64x4096x2_S64x2x4096_0_2_1 := by
    show StableHlo.after hostOps0 (fun b => m (c, b)) (Proc.devRef .tc main_v1) = _
    after_results
    rfl
  rw [e, transpose_ix3_021_apply, shapeCast_1abc_abc_apply]

/-- The first layer's weights as launched, output-major. -/
theorem w0_at (c : Dev nD) (g : Fin 64) (j : Fin 256) (k : Fin 2) :
    (V m c main_v2 : S64x256x2.Idx → Elt Ideal .f32) (ix3 g j k) = m ((c : Thread nD τ).loc main_arg1) (ix3 g k j) := by
  have e : (V m c main_v2 : S64x256x2.Idx → Elt Ideal .f32)
      = transpose S64x256x2 [0, 2, 1] (m ((c : Thread nD τ).loc main_arg1)) Facts₀.transposes_S64x2x256_S64x256x2_0_2_1 := by
    show StableHlo.after hostOps0 (fun b => m (c, b)) (Proc.devRef .tc main_v2) = _
    after_results
  rw [e, transpose_ix3_021_apply]

/-- The second layer's weights as launched, output-major. -/
theorem w1_at (c : Dev nD) (g : Fin 64) (j : Fin 256) (k : Fin 256) :
    (V m c main_v3 : S64x256x256.Idx → Elt Ideal .f32) (ix3 g j k) = m ((c : Thread nD τ).loc main_arg3) (ix3 g k j) := by
  have e : (V m c main_v3 : S64x256x256.Idx → Elt Ideal .f32)
      = transpose S64x256x256 [0, 2, 1] (m ((c : Thread nD τ).loc main_arg3)) Facts₀.transposes_S64x256x256_S64x256x256_0_2_1 := by
    show StableHlo.after hostOps0 (fun b => m (c, b)) (Proc.devRef .tc main_v3) = _
    after_results
  rw [e, transpose_ix3_021_apply]

/-- The third layer's weights as launched, output-major. -/
theorem w2_at (c : Dev nD) (g : Fin 64) (j : Fin 256) (k : Fin 256) :
    (V m c main_v4 : S64x256x256.Idx → Elt Ideal .f32) (ix3 g j k) = m ((c : Thread nD τ).loc main_arg5) (ix3 g k j) := by
  have e : (V m c main_v4 : S64x256x256.Idx → Elt Ideal .f32)
      = transpose S64x256x256 [0, 2, 1] (m ((c : Thread nD τ).loc main_arg5)) Facts₀.transposes_S64x256x256_S64x256x256_0_2_1 := by
    show StableHlo.after hostOps0 (fun b => m (c, b)) (Proc.devRef .tc main_v4) = _
    after_results
  rw [e, transpose_ix3_021_apply]

/-- The fourth layer's weights as launched, output-major. -/
theorem w3_at (c : Dev nD) (g : Fin 64) (j : Fin 256) (k : Fin 256) :
    (V m c main_v5 : S64x256x256.Idx → Elt Ideal .f32) (ix3 g j k) = m ((c : Thread nD τ).loc main_arg7) (ix3 g k j) := by
  have e : (V m c main_v5 : S64x256x256.Idx → Elt Ideal .f32)
      = transpose S64x256x256 [0, 2, 1] (m ((c : Thread nD τ).loc main_arg7)) Facts₀.transposes_S64x256x256_S64x256x256_0_2_1 := by
    show StableHlo.after hostOps0 (fun b => m (c, b)) (Proc.devRef .tc main_v5) = _
    after_results
  rw [e, transpose_ix3_021_apply]

/-- The output layer's weights as launched, output-major. -/
theorem w4_at (c : Dev nD) (g : Fin 64) (p : Fin 3) (k : Fin 256) :
    (V m c main_v6 : S64x3x256.Idx → Elt Ideal .f32) (ix3 g p k) = m ((c : Thread nD τ).loc main_arg9) (ix3 g k p) := by
  have e : (V m c main_v6 : S64x3x256.Idx → Elt Ideal .f32)
      = transpose S64x3x256 [0, 2, 1] (m ((c : Thread nD τ).loc main_arg9)) Facts₀.transposes_S64x256x3_S64x3x256_0_2_1 := by
    show StableHlo.after hostOps0 (fun b => m (c, b)) (Proc.devRef .tc main_v6) = _
    after_results
  rw [e, transpose_ix3_021_apply]

/-- The first layer's bias as launched, a column per group. -/
theorem b0_at (c : Dev nD) (g : Fin 64) (j : Fin 256) (u : Fin 1) :
    (V m c main_v7 : S64x256x1.Idx → Elt Ideal .f32) (ix3 g j u) = m ((c : Thread nD τ).loc main_arg2) (ix2 g j) := by
  have e : (V m c main_v7 : S64x256x1.Idx → Elt Ideal .f32)
      = shapeCast S64x256x1 (m ((c : Thread nD τ).loc main_arg2)) Facts₀.shapeCasts_S64x256_S64x256x1 := by
    show StableHlo.after hostOps0 (fun b => m (c, b)) (Proc.devRef .tc main_v7) = _
    after_results
    rfl
  rw [e, shapeCast_ab_ab1_apply]

/-- The second layer's bias as launched. -/
theorem b1_at (c : Dev nD) (g : Fin 64) (j : Fin 256) (u : Fin 1) :
    (V m c main_v8 : S64x256x1.Idx → Elt Ideal .f32) (ix3 g j u) = m ((c : Thread nD τ).loc main_arg4) (ix2 g j) := by
  have e : (V m c main_v8 : S64x256x1.Idx → Elt Ideal .f32)
      = shapeCast S64x256x1 (m ((c : Thread nD τ).loc main_arg4)) Facts₀.shapeCasts_S64x256_S64x256x1 := by
    show StableHlo.after hostOps0 (fun b => m (c, b)) (Proc.devRef .tc main_v8) = _
    after_results
    rfl
  rw [e, shapeCast_ab_ab1_apply]

/-- The third layer's bias as launched. -/
theorem b2_at (c : Dev nD) (g : Fin 64) (j : Fin 256) (u : Fin 1) :
    (V m c main_v9 : S64x256x1.Idx → Elt Ideal .f32) (ix3 g j u) = m ((c : Thread nD τ).loc main_arg6) (ix2 g j) := by
  have e : (V m c main_v9 : S64x256x1.Idx → Elt Ideal .f32)
      = shapeCast S64x256x1 (m ((c : Thread nD τ).loc main_arg6)) Facts₀.shapeCasts_S64x256_S64x256x1 := by
    show StableHlo.after hostOps0 (fun b => m (c, b)) (Proc.devRef .tc main_v9) = _
    after_results
    rfl
  rw [e, shapeCast_ab_ab1_apply]

/-- The fourth layer's bias as launched. -/
theorem b3_at (c : Dev nD) (g : Fin 64) (j : Fin 256) (u : Fin 1) :
    (V m c main_v10 : S64x256x1.Idx → Elt Ideal .f32) (ix3 g j u) = m ((c : Thread nD τ).loc main_arg8) (ix2 g j) := by
  have e : (V m c main_v10 : S64x256x1.Idx → Elt Ideal .f32)
      = shapeCast S64x256x1 (m ((c : Thread nD τ).loc main_arg8)) Facts₀.shapeCasts_S64x256_S64x256x1 := by
    show StableHlo.after hostOps0 (fun b => m (c, b)) (Proc.devRef .tc main_v10) = _
    after_results
    rfl
  rw [e, shapeCast_ab_ab1_apply]

/-- The output layer's bias as launched. -/
theorem b4_at (c : Dev nD) (g : Fin 64) (p : Fin 3) (u : Fin 1) :
    (V m c main_v11 : S64x3x1.Idx → Elt Ideal .f32) (ix3 g p u) = m ((c : Thread nD τ).loc main_arg10) (ix2 g p) := by
  have e : (V m c main_v11 : S64x3x1.Idx → Elt Ideal .f32)
      = shapeCast S64x3x1 (m ((c : Thread nD τ).loc main_arg10)) Facts₀.shapeCasts_S64x3_S64x3x1 := by
    show StableHlo.after hostOps0 (fun b => m (c, b)) (Proc.devRef .tc main_v11) = _
    after_results
    rfl
  rw [e, shapeCast_ab_ab1_apply]

end Cert.KernelIdeal.Arrays

end
-- ==== Proof.Outputs.lean ====
/-
  The grouped network's whole result as one function of the eleven argument arrays.

  The arguments are the points [1, 64, 4096, 2] and, for each of the five layers, the weights [64, I, O] (input-major:
  entry (g, i, o) multiplies input i into output o) and the bias [64, O].  Entry (g, n, p) of the result is output p of
  group g's network (Siren.lean, whose weights are written output-major: w j k is the argument's entry (g, k, j)) at
  point n of group g.
-/
import proofs.«424906_j73607149519468_4_alg».proof.Proof.Siren

noncomputable section

namespace Cert.Siren

open Idealize.ShloMosaic Idealize.ShloMosaic.ValueIdx

/-- Entry (g, n, p) of the result: output p of group g's network at the group's point n. -/
def outputs (a0 : (⟨4, ![1, 64, 4096, 2]⟩ : Shape).Idx → EReal)
    (a1 : (⟨3, ![64, 2, 256]⟩ : Shape).Idx → EReal) (a2 : (⟨2, ![64, 256]⟩ : Shape).Idx → EReal)
    (a3 : (⟨3, ![64, 256, 256]⟩ : Shape).Idx → EReal) (a4 : (⟨2, ![64, 256]⟩ : Shape).Idx → EReal)
    (a5 : (⟨3, ![64, 256, 256]⟩ : Shape).Idx → EReal) (a6 : (⟨2, ![64, 256]⟩ : Shape).Idx → EReal)
    (a7 : (⟨3, ![64, 256, 256]⟩ : Shape).Idx → EReal) (a8 : (⟨2, ![64, 256]⟩ : Shape).Idx → EReal)
    (a9 : (⟨3, ![64, 256, 3]⟩ : Shape).Idx → EReal) (a10 : (⟨2, ![64, 3]⟩ : Shape).Idx → EReal) :
    (⟨3, ![64, 4096, 3]⟩ : Shape).Idx → EReal := fun i =>
  net (fun j k => a1 (ix3 (i 0) k j)) (fun j => a2 (ix2 (i 0) j)) (fun j k => a3 (ix3 (i 0) k j)) (fun j => a4 (ix2 (i 0) j))
    (fun j k => a5 (ix3 (i 0) k j)) (fun j => a6 (ix2 (i 0) j)) (fun j k => a7 (ix3 (i 0) k j)) (fun j => a8 (ix2 (i 0) j))
    (fun p k => a9 (ix3 (i 0) k p)) (fun p => a10 (ix2 (i 0) p)) (fun k => a0 (ix4 (0 : Fin 1) (i 0) (i 1) k)) (i 2)

/-- The network of weights, biases and a point that agree entry by entry is the same network. -/
theorem net_congr {w0 w0' : Fin 256 → Fin 2 → EReal} {b0 b0' : Fin 256 → EReal} {w1 w1' : Fin 256 → Fin 256 → EReal} {b1 b1' : Fin 256 → EReal}
    {w2 w2' : Fin 256 → Fin 256 → EReal} {b2 b2' : Fin 256 → EReal} {w3 w3' : Fin 256 → Fin 256 → EReal} {b3 b3' : Fin 256 → EReal}
    {w4 w4' : Fin 3 → Fin 256 → EReal} {b4 b4' : Fin 3 → EReal} {x x' : Fin 2 → EReal}
    (hw0 : ∀ j k, w0 j k = w0' j k) (hb0 : ∀ j, b0 j = b0' j) (hw1 : ∀ j k, w1 j k = w1' j k) (hb1 : ∀ j, b1 j = b1' j)
    (hw2 : ∀ j k, w2 j k = w2' j k) (hb2 : ∀ j, b2 j = b2' j) (hw3 : ∀ j k, w3 j k = w3' j k) (hb3 : ∀ j, b3 j = b3' j)
    (hw4 : ∀ p k, w4 p k = w4' p k) (hb4 : ∀ p, b4 p = b4' p) (hx : ∀ k, x k = x' k) :
    net w0 b0 w1 b1 w2 b2 w3 b3 w4 b4 x = net w0' b0' w1' b1' w2' b2' w3' b3' w4' b4' x' := by
  obtain rfl : w0 = w0' := funext fun j => funext fun k => hw0 j k
  obtain rfl : b0 = b0' := funext hb0
  obtain rfl : w1 = w1' := funext fun j => funext fun k => hw1 j k
  obtain rfl : b1 = b1' := funext hb1
  obtain rfl : w2 = w2' := funext fun j => funext fun k => hw2 j k
  obtain rfl : b2 = b2' := funext hb2
  obtain rfl : w3 = w3' := funext fun j => funext fun k => hw3 j k
  obtain rfl : b3 = b3' := funext hb3
  obtain rfl : w4 = w4' := funext fun p => funext fun k => hw4 p k
  obtain rfl : b4 = b4' := funext hb4
  obtain rfl : x = x' := funext hx
  rfl

/-- An affine layer with each product written input first (x k * w j k) is the same layer. -/
theorem affine_comm {K M : Nat} (w : Fin M → Fin K → EReal) (b : Fin M → EReal) (x : Fin K → EReal) (j : Fin M) :
    (∑ k : Fin K, x k * w j k) + b j = affine w b x j :=
  congrArg (· + b j) (Finset.sum_congr rfl fun k _ => mul_comm _ _)

end Cert.Siren

end
-- ==== Proof.KernelValue.lean ====
/-
  The kernel program's result, as the grouped network of its arguments.

  The call runs over sixteen grid points; point t stages, of every operand array, the block of groups 4t .. 4t+3 (the
  other two axes whole) and writes back the block of the same groups of the result array [64, 3, 4096].  Slab g of a
  block at point t is therefore group 4t+g of its array.  With what the body stores at an entry (KernelBlock.lean) and
  what the operand arrays hold at an entry (KernelArrays.lean), the block written back at point t is the block of ONE
  array: the network's result (Outputs.lean) with its last two axes swapped.  The sixteen blocks tile the result array
  (the block of group r is point r / 4's), so the array after the call is that one.  The host then swaps the last two axes
  back and adds a leading unit axis: the program's result is the network's result with a leading unit axis.
-/
import proofs.«424906_j73607149519468_4_alg».proof.Proof.Gen.KernelIdeal.Frame
import proofs.«424906_j73607149519468_4_alg».proof.Proof.KernelBlock
import proofs.«424906_j73607149519468_4_alg».proof.Proof.KernelArrays
import proofs.«424906_j73607149519468_4_alg».proof.Proof.Outputs
import Idealize.ShloMosaic.Lib.Pipeline.Value
import Idealize.ShloMosaic.Lib.StableHlo.Run
import Idealize.ShloMosaic.Lib.ValueLayout

noncomputable section

namespace Cert.KernelIdeal.RegionValue

open Idealize.ShloMosaic Idealize.ShloMosaic.TcCoe Idealize.ShloMosaic.ValueIdx Idealize.SL.Sem Idealize.ShloMosaic.StableHlo
open Cert.KernelIdeal Cert.KernelIdeal.Gen Cert.KernelIdeal.Block Cert.KernelIdeal.Arrays Cert.Siren
open Idealize.ShloMosaic.Pipeline (Dat Cfg Window)

variable (m : (ℓ : Loc nD τ sig) → Buf (Elt Ideal) ℓ) (ρ : Dev nD → PrngReg)

/-- The group that slab g of a block at grid point t holds. -/
def groupOf (t : Fin cfg0.N) (g : Fin 4) : Fin 64 :=
  ⟨4 * t.val + g.val, by have hN : cfg0.N = 16 := N_0; have ht := t.isLt; have hg := g.isLt; omega⟩

/-- The network's result over the arguments core c was launched with. -/
abbrev result (c : Dev nD) : (⟨3, ![64, 4096, 3]⟩ : Shape).Idx → EReal :=
  outputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The call's result array: the network's result with the outputs along the second axis and the points along the third. -/
def laidOut (c : Dev nD) : S64x3x4096.Idx → Elt Ideal .f32 := fun i => result m c (ix3 (i 0) (i 2) (i 1))

/-! ## The printed index maps, decided over the grid: every window's block at point t is block t along the groups -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-! ## The operand blocks at a point, read at an entry: slab g is group 4t+g of the argument

Each block entry is the staged array's entry at the block's offset plus the entry's own coordinates (the offset on an
axis is the block index times the block's extent), and the staged array's entry is the argument's (KernelArrays.lean). -/

/-- The points' block: coordinate k of point n of group 4t+g. -/
theorem points_blk (c : Dev nD) (t : Fin cfg0.N) (g : Fin 4) (k : Fin 2) (n : Fin 4096) :
    iblk m c 0 t (ix3 g k n) = m ((c : Thread nD τ).loc main_arg0) (ix4 (0 : Fin 1) (groupOf t g) n k) := by
  refine Eq.trans ?_ (points_at m c (groupOf t g) k n)
  show V m c main_v1 (((cfg0.win 0).blk t).view.emb (ix3 g k n)) = V m c main_v1 (ix3 (groupOf t g) k n)
  refine congrArg _ (funext fun a => Fin.ext ?_)
  obtain ⟨e0, e1, e2⟩ := idx0 t
  match a with
  | ⟨0, _⟩ => show win0_0.index t (0 : Fin 3) * 4 + 1 * g.val = 4 * t.val + g.val; omega
  | ⟨1, _⟩ => show win0_0.index t (1 : Fin 3) * 2 + 1 * k.val = k.val; omega
  | ⟨2, _⟩ => show win0_0.index t (2 : Fin 3) * 4096 + 1 * n.val = n.val; omega

/-- The first layer's weights' block. -/
theorem w0_blk (c : Dev nD) (t : Fin cfg0.N) (g : Fin 4) (j : Fin 256) (k : Fin 2) :
    iblk m c 1 t (ix3 g j k) = m ((c : Thread nD τ).loc main_arg1) (ix3 (groupOf t g) k j) := by
  refine Eq.trans ?_ (w0_at m c (groupOf t g) j k)
  show V m c main_v2 (((cfg0.win 1).blk t).view.emb (ix3 g j k)) = V m c main_v2 (ix3 (groupOf t g) j k)
  refine congrArg _ (funext fun a => Fin.ext ?_)
  obtain ⟨e0, e1, e2⟩ := idx1 t
  match a with
  | ⟨0, _⟩ => show win0_1.index t (0 : Fin 3) * 4 + 1 * g.val = 4 * t.val + g.val; omega
  | ⟨1, _⟩ => show win0_1.index t (1 : Fin 3) * 256 + 1 * j.val = j.val; omega
  | ⟨2, _⟩ => show win0_1.index t (2 : Fin 3) * 2 + 1 * k.val = k.val; omega

/-- The first layer's bias' block. -/
theorem b0_blk (c : Dev nD) (t : Fin cfg0.N) (g : Fin 4) (j : Fin 256) (u : Fin 1) :
    iblk m c 2 t (ix3 g j u) = m ((c : Thread nD τ).loc main_arg2) (ix2 (groupOf t g) j) := by
  refine Eq.trans ?_ (b0_at m c (groupOf t g) j u)
  show V m c main_v7 (((cfg0.win 2).blk t).view.emb (ix3 g j u)) = V m c main_v7 (ix3 (groupOf t g) j u)
  refine congrArg _ (funext fun a => Fin.ext ?_)
  obtain ⟨e0, e1, e2⟩ := idx2 t
  match a with
  | ⟨0, _⟩ => show win0_2.index t (0 : Fin 3) * 4 + 1 * g.val = 4 * t.val + g.val; omega
  | ⟨1, _⟩ => show win0_2.index t (1 : Fin 3) * 256 + 1 * j.val = j.val; omega
  | ⟨2, _⟩ => show win0_2.index t (2 : Fin 3) * 1 + 1 * u.val = u.val; omega

/-- The second layer's weights' block. -/
theorem w1_blk (c : Dev nD) (t : Fin cfg0.N) (g : Fin 4) (j : Fin 256) (k : Fin 256) :
    iblk m c 3 t (ix3 g j k) = m ((c : Thread nD τ).loc main_arg3) (ix3 (groupOf t g) k j) := by
  refine Eq.trans ?_ (w1_at m c (groupOf t g) j k)
  show V m c main_v3 (((cfg0.win 3).blk t).view.emb (ix3 g j k)) = V m c main_v3 (ix3 (groupOf t g) j k)
  refine congrArg _ (funext fun a => Fin.ext ?_)
  obtain ⟨e0, e1, e2⟩ := idx3 t
  match a with
  | ⟨0, _⟩ => show win0_3.index t (0 : Fin 3) * 4 + 1 * g.val = 4 * t.val + g.val; omega
  | ⟨1, _⟩ => show win0_3.index t (1 : Fin 3) * 256 + 1 * j.val = j.val; omega
  | ⟨2, _⟩ => show win0_3.index t (2 : Fin 3) * 256 + 1 * k.val = k.val; omega

/-- The second layer's bias' block. -/
theorem b1_blk (c : Dev nD) (t : Fin cfg0.N) (g : Fin 4) (j : Fin 256) (u : Fin 1) :
    iblk m c 4 t (ix3 g j u) = m ((c : Thread nD τ).loc main_arg4) (ix2 (groupOf t g) j) := by
  refine Eq.trans ?_ (b1_at m c (groupOf t g) j u)
  show V m c main_v8 (((cfg0.win 4).blk t).view.emb (ix3 g j u)) = V m c main_v8 (ix3 (groupOf t g) j u)
  refine congrArg _ (funext fun a => Fin.ext ?_)
  obtain ⟨e0, e1, e2⟩ := idx4 t
  match a with
  | ⟨0, _⟩ => show win0_4.index t (0 : Fin 3) * 4 + 1 * g.val = 4 * t.val + g.val; omega
  | ⟨1, _⟩ => show win0_4.index t (1 : Fin 3) * 256 + 1 * j.val = j.val; omega
  | ⟨2, _⟩ => show win0_4.index t (2 : Fin 3) * 1 + 1 * u.val = u.val; omega

/-- The third layer's weights' block. -/
theorem w2_blk (c : Dev nD) (t : Fin cfg0.N) (g : Fin 4) (j : Fin 256) (k : Fin 256) :
    iblk m c 5 t (ix3 g j k) = m ((c : Thread nD τ).loc main_arg5) (ix3 (groupOf t g) k j) := by
  refine Eq.trans ?_ (w2_at m c (groupOf t g) j k)
  show V m c main_v4 (((cfg0.win 5).blk t).view.emb (ix3 g j k)) = V m c main_v4 (ix3 (groupOf t g) j k)
  refine congrArg _ (funext fun a => Fin.ext ?_)
  obtain ⟨e0, e1, e2⟩ := idx5 t
  match a with
  | ⟨0, _⟩ => show win0_5.index t (0 : Fin 3) * 4 + 1 * g.val = 4 * t.val + g.val; omega
  | ⟨1, _⟩ => show win0_5.index t (1 : Fin 3) * 256 + 1 * j.val = j.val; omega
  | ⟨2, _⟩ => show win0_5.index t (2 : Fin 3) * 256 + 1 * k.val = k.val; omega

/-- The third layer's bias' block. -/
theorem b2_blk (c : Dev nD) (t : Fin cfg0.N) (g : Fin 4) (j : Fin 256) (u : Fin 1) :
    iblk m c 6 t (ix3 g j u) = m ((c : Thread nD τ).loc main_arg6) (ix2 (groupOf t g) j) := by
  refine Eq.trans ?_ (b2_at m c (groupOf t g) j u)
  show V m c main_v9 (((cfg0.win 6).blk t).view.emb (ix3 g j u)) = V m c main_v9 (ix3 (groupOf t g) j u)
  refine congrArg _ (funext fun a => Fin.ext ?_)
  obtain ⟨e0, e1, e2⟩ := idx6 t
  match a with
  | ⟨0, _⟩ => show win0_6.index t (0 : Fin 3) * 4 + 1 * g.val = 4 * t.val + g.val; omega
  | ⟨1, _⟩ => show win0_6.index t (1 : Fin 3) * 256 + 1 * j.val = j.val; omega
  | ⟨2, _⟩ => show win0_6.index t (2 : Fin 3) * 1 + 1 * u.val = u.val; omega

/-- The fourth layer's weights' block. -/
theorem w3_blk (c : Dev nD) (t : Fin cfg0.N) (g : Fin 4) (j : Fin 256) (k : Fin 256) :
    iblk m c 7 t (ix3 g j k) = m ((c : Thread nD τ).loc main_arg7) (ix3 (groupOf t g) k j) := by
  refine Eq.trans ?_ (w3_at m c (groupOf t g) j k)
  show V m c main_v5 (((cfg0.win 7).blk t).view.emb (ix3 g j k)) = V m c main_v5 (ix3 (groupOf t g) j k)
  refine congrArg _ (funext fun a => Fin.ext ?_)
  obtain ⟨e0, e1, e2⟩ := idx7 t
  match a with
  | ⟨0, _⟩ => show win0_7.index t (0 : Fin 3) * 4 + 1 * g.val = 4 * t.val + g.val; omega
  | ⟨1, _⟩ => show win0_7.index t (1 : Fin 3) * 256 + 1 * j.val = j.val; omega
  | ⟨2, _⟩ => show win0_7.index t (2 : Fin 3) * 256 + 1 * k.val = k.val; omega

/-- The fourth layer's bias' block. -/
theorem b3_blk (c : Dev nD) (t : Fin cfg0.N) (g : Fin 4) (j : Fin 256) (u : Fin 1) :
    iblk m c 8 t (ix3 g j u) = m ((c : Thread nD τ).loc main_arg8) (ix2 (groupOf t g) j) := by
  refine Eq.trans ?_ (b3_at m c (groupOf t g) j u)
  show V m c main_v10 (((cfg0.win 8).blk t).view.emb (ix3 g j u)) = V m c main_v10 (ix3 (groupOf t g) j u)
  refine congrArg _ (funext fun a => Fin.ext ?_)
  obtain ⟨e0, e1, e2⟩ := idx8 t
  match a with
  | ⟨0, _⟩ => show win0_8.index t (0 : Fin 3) * 4 + 1 * g.val = 4 * t.val + g.val; omega
  | ⟨1, _⟩ => show win0_8.index t (1 : Fin 3) * 256 + 1 * j.val = j.val; omega
  | ⟨2, _⟩ => show win0_8.index t (2 : Fin 3) * 1 + 1 * u.val = u.val; omega

/-- The output layer's weights' block. -/
theorem w4_blk (c : Dev nD) (t : Fin cfg0.N) (g : Fin 4) (p : Fin 3) (k : Fin 256) :
    iblk m c 9 t (ix3 g p k) = m ((c : Thread nD τ).loc main_arg9) (ix3 (groupOf t g) k p) := by
  refine Eq.trans ?_ (w4_at m c (groupOf t g) p k)
  show V m c main_v6 (((cfg0.win 9).blk t).view.emb (ix3 g p k)) = V m c main_v6 (ix3 (groupOf t g) p k)
  refine congrArg _ (funext fun a => Fin.ext ?_)
  obtain ⟨e0, e1, e2⟩ := idx9 t
  match a with
  | ⟨0, _⟩ => show win0_9.index t (0 : Fin 3) * 4 + 1 * g.val = 4 * t.val + g.val; omega
  | ⟨1, _⟩ => show win0_9.index t (1 : Fin 3) * 3 + 1 * p.val = p.val; omega
  | ⟨2, _⟩ => show win0_9.index t (2 : Fin 3) * 256 + 1 * k.val = k.val; omega

/-- The output layer's bias' block. -/
theorem b4_blk (c : Dev nD) (t : Fin cfg0.N) (g : Fin 4) (p : Fin 3) (u : Fin 1) :
    iblk m c 10 t (ix3 g p u) = m ((c : Thread nD τ).loc main_arg10) (ix2 (groupOf t g) p) := by
  refine Eq.trans ?_ (b4_at m c (groupOf t g) p u)
  show V m c main_v11 (((cfg0.win 10).blk t).view.emb (ix3 g p u)) = V m c main_v11 (ix3 (groupOf t g) p u)
  refine congrArg _ (funext fun a => Fin.ext ?_)
  obtain ⟨e0, e1, e2⟩ := idx10 t
  match a with
  | ⟨0, _⟩ => show win0_10.index t (0 : Fin 3) * 4 + 1 * g.val = 4 * t.val + g.val; omega
  | ⟨1, _⟩ => show win0_10.index t (1 : Fin 3) * 3 + 1 * p.val = p.val; omega
  | ⟨2, _⟩ => show win0_10.index t (2 : Fin 3) * 1 + 1 * u.val = u.val; omega

/-- The result block's entry (g, p, n) at point t lies at (4t+g, p, n) of the result array. -/
theorem out_emb (t : Fin cfg0.N) (g : Fin 4) (p : Fin 3) (n : Fin 4096) :
    ((cfg0.win 11).blk t).view.emb (ix3 g p n) = (ix3 (groupOf t g) p n : S64x3x4096.Idx) := by
  funext a
  apply Fin.ext
  obtain ⟨e0, e1, e2⟩ := idx11 t
  match a with
  | ⟨0, _⟩ => show win0_11.index t (0 : Fin 3) * 4 + 1 * g.val = 4 * t.val + g.val; omega
  | ⟨1, _⟩ => show win0_11.index t (1 : Fin 3) * 3 + 1 * p.val = p.val; omega
  | ⟨2, _⟩ => show win0_11.index t (2 : Fin 3) * 4096 + 1 * n.val = n.val; omega

/-! ## From the blocks to the array -/

/-- What point t writes back is block t of the laid-out result. -/
theorem flushed_eq (c : Dev nD) (t : Fin cfg0.N) :
    (dats m 0 c).flushed 11 t = ((cfg0.win 11).blk t).view.read (Elt Ideal) (laidOut m c) := by
  show (cfg0.win 11).cut (grid0.coords t) ((dats m 0 c).after 11 t) = _
  rw [after0_11, out_eq_stacked]
  funext y
  obtain ⟨g, p, n, rfl⟩ : ∃ (g : Fin 4) (p : Fin 3) (n : Fin 4096), y = ix3 g p n := ⟨y 0, y 1, y 2, eq_ix3 y⟩
  show stacked (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 g p n)
    = laidOut m c (((cfg0.win 11).blk t).view.emb (ix3 g p n))
  rw [out_emb t g p n]
  refine (stacked_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) g p n).trans ?_
  exact congrFun (net_congr (fun j k => w0_blk m c t g j k) (fun j => b0_blk m c t g j 0)
    (fun j k => w1_blk m c t g j k) (fun j => b1_blk m c t g j 0)
    (fun j k => w2_blk m c t g j k) (fun j => b2_blk m c t g j 0)
    (fun j k => w3_blk m c t g j k) (fun j => b3_blk m c t g j 0)
    (fun q k => w4_blk m c t g q k) (fun q => b4_blk m c t g q 0)
    (fun k => points_blk m c t g k n)) p

/-- An index of the result array is in point t's block iff each coordinate is in the block's range on its axis. -/
theorem mem_blk (t : Fin cfg0.N) (i : S64x3x4096.Idx) :
    i ∈ ((cfg0.win 11).blk t).view.set ↔ ∀ a : Fin 3, win0_11.index t a * S4x3x4096.size a ≤ (i a).val
      ∧ (i a).val < win0_11.index t a * S4x3x4096.size a + S4x3x4096.size a := by
  show i ∈ ((View.whole main_v12).slice (win0_11.rect t)).set ↔ _
  rw [View.set_slice_whole, Rect.mem_set_unit]
  exact Iff.rfl

/-- Every entry of the result array is written back by some point: group r's by point r / 4. -/
theorem covered (i : S64x3x4096.Idx) :
    ∃ t : Fin cfg0.N, (cfg0.win 11).flush t = true ∧ i ∈ ((cfg0.win 11).blk t).view.set := by
  have h0 : (i 0).val < 64 := (i 0).isLt
  have h1 : (i 1).val < 3 := (i 1).isLt
  have h2 : (i 2).val < 4096 := (i 2).isLt
  have hN : cfg0.N = 16 := N_0
  have ht : ∃ t : Fin cfg0.N, t.val = (i 0).val / 4 := ⟨⟨(i 0).val / 4, by omega⟩, rfl⟩
  obtain ⟨t, ht⟩ := ht
  refine ⟨t, flush0_11 t, ?_⟩
  rw [mem_blk]
  obtain ⟨e0, e1, e2⟩ := idx11 t
  intro a
  match a with
  | ⟨0, _⟩ => show win0_11.index t (0 : Fin 3) * 4 ≤ (i 0).val ∧ (i 0).val < win0_11.index t (0 : Fin 3) * 4 + 4; omega
  | ⟨1, _⟩ => show win0_11.index t (1 : Fin 3) * 3 ≤ (i 1).val ∧ (i 1).val < win0_11.index t (1 : Fin 3) * 3 + 3; omega
  | ⟨2, _⟩ => show win0_11.index t (2 : Fin 3) * 4096 ≤ (i 2).val ∧ (i 2).val < win0_11.index t (2 : Fin 3) * 4096 + 4096; omega

/-- The result array after the call is the laid-out result. -/
theorem final (c : Dev nD) : (dats m 0 c).arrAt 11 cfg0.N = laidOut m c :=
  (dats m 0 c).arrAt_eq_of_cover 11 (laidOut m c) (fun t _ => flushed_eq m c t) covered

/-! ## The host's lines after the call, and the run -/

/-- The program's result: the network's result with a leading unit axis. -/
theorem program_result (c : Dev nD) :
    Pipeline.afterTail₀ cfgs (dats m) 0 (V0 m) [hostOps1] c main_v14
      = broadcastInDim S1x64x4096x3 ![1, 2, 3] Facts₀.bcast_S64x4096x3_S1x64x4096x3_1_2_3 (result m c) := by
  unfold Pipeline.afterTail₀
  show StableHlo.after hostOps1 _ (Proc.devRef .tc main_v14) = _
  after_results
  refine congrArg (broadcastInDim (s := S64x4096x3) S1x64x4096x3 (![1, 2, 3] : Fin 3 → Fin S1x64x4096x3.rank) Facts₀.bcast_S64x4096x3_S1x64x4096x3_1_2_3) ?_
  funext i
  obtain ⟨g, n, p, rfl⟩ : ∃ (g : Fin 64) (n : Fin 4096) (p : Fin 3), i = ix3 g n p := ⟨i 0, i 1, i 2, eq_ix3 i⟩
  rw [transpose_ix3_021_apply]
  show Pipeline.withArrays spec0 c (V0 m c) (fun w => (dats m 0 c).arrAt w cfg0.N) (Proc.devRef .tc (Pipeline.arrRef spec0 11)) (ix3 g p n) = _
  rw [Pipeline.withArrays_arr spec0 winFacts0.arr_inj c _ _ 11, final]
  rfl

/-- The run: every weakly fair execution terminates with the result at the network's result of the arguments, the
    arguments unchanged. -/
theorem run : θ_run defs (onTc (τ := τ) (main (F := Ideal))) ⟨m, fun _ => 0, ρ⟩ (fun r => ∀ c : Dev nD,
      r.2.mem ((c.tc : Thread nD τ).loc main_v14)
        = broadcastInDim S1x64x4096x3 ![1, 2, 3] Facts₀.bcast_S64x4096x3_S1x64x4096x3_1_2_3 (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v14 (Pipeline.mem_restRefs_of main_v14 (by decide) (by decide))).trans (program_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.RegionValue

end
-- ==== Proof.RefValue.lean ====
/-
  The reference, read at an entry: its result before the last reshaping, at (g, n, p), is output p of group g's network at
  the group's point n.

  The reference contracts, for every group and point, the layer's input with the weights [64, I, O] over I, adds the
  bias broadcast over the points, and (but for the last layer) takes the sine of thirty times that.  With the points of a
  group along the second axis and a layer's outputs along the third, the vector of outputs at (g, n, .) is the activated
  affine layer of the vector of inputs at (g, n, .); the reference writes each product input first, which is the same
  product.
-/
import proofs.«424906_j73607149519468_4_alg».proof.Proof.Gen.ReferenceIdeal.Read
import proofs.«424906_j73607149519468_4_alg».proof.Proof.Outputs

noncomputable section

namespace Cert.ReferenceIdeal.RefValue

open Idealize.ShloMosaic Idealize.ShloMosaic.ValueIdx Cert.ReferenceIdeal Cert.ReferenceIdeal.Read Cert.Siren

variable (x0 : (⟨S1x64x4096x2, .f32⟩ : BufTy).Contents (Elt Ideal)) (x1 : (⟨S64x2x256, .f32⟩ : BufTy).Contents (Elt Ideal))
  (x2 : (⟨S64x256, .f32⟩ : BufTy).Contents (Elt Ideal)) (x3 : (⟨S64x256x256, .f32⟩ : BufTy).Contents (Elt Ideal))
  (x4 : (⟨S64x256, .f32⟩ : BufTy).Contents (Elt Ideal)) (x5 : (⟨S64x256x256, .f32⟩ : BufTy).Contents (Elt Ideal))
  (x6 : (⟨S64x256, .f32⟩ : BufTy).Contents (Elt Ideal)) (x7 : (⟨S64x256x256, .f32⟩ : BufTy).Contents (Elt Ideal))
  (x8 : (⟨S64x256, .f32⟩ : BufTy).Contents (Elt Ideal)) (x9 : (⟨S64x256x3, .f32⟩ : BufTy).Contents (Elt Ideal))
  (x10 : (⟨S64x3, .f32⟩ : BufTy).Contents (Elt Ideal))

/-! ## The operands' indices at an entry -/

/-- The points without their leading unit axis: entry (g, n, k) is the argument's entry (0, g, n, k). -/
theorem point_idx (g : Fin 64) (n : Fin 4096) (k : Fin 2) : idx_main_v0 (ix3 g n k) = ix4 (0 : Fin 1) g n k := by
  have hg := g.isLt; have hn := n.isLt; have hk := k.isLt
  funext a
  match a with
  | ⟨0, _⟩ => rfl
  | ⟨1, _⟩ => exact Fin.ext (by show ((g.val * 4096 + n.val) * 2 + k.val) / 8192 % 64 = g.val; omega)
  | ⟨2, _⟩ => exact Fin.ext (by show ((g.val * 4096 + n.val) * 2 + k.val) / 2 % 4096 = n.val; omega)
  | ⟨3, _⟩ => exact Fin.ext (by show ((g.val * 4096 + n.val) * 2 + k.val) % 2 = k.val; omega)

/-- The first product at (g, n, j): the sum over the point's two coordinates. -/
theorem dot0_at (g : Fin 64) (n : Fin 4096) (j : Fin 256) :
    val_main_v1 (F := Ideal) x0 x1 (ix3 g n j) = ∑ k : Fin 2, x0 (ix4 (0 : Fin 1) g n k) * x1 (ix3 g k j) := by
  rw [val_main_v1_apply]
  refine Finset.sum_congr rfl fun k _ => ?_
  have el : lidx_main_v1 (ix3 g n j) k = ix3 g n k := funext fun a => by match a with | ⟨0, _⟩ => rfl | ⟨1, _⟩ => rfl | ⟨2, _⟩ => rfl
  have er : ridx_main_v1 (ix3 g n j) k = ix3 g k j := funext fun a => by match a with | ⟨0, _⟩ => rfl | ⟨1, _⟩ => rfl | ⟨2, _⟩ => rfl
  rw [el, er, val_main_v0_apply, point_idx]

/-- The first bias broadcast over the points, at (g, n, j). -/
theorem bias0_at (g : Fin 64) (n : Fin 4096) (j : Fin 256) : val_main_v3 (F := Ideal) x2 (ix3 g n j) = x2 (ix2 g j) := by
  rw [val_main_v3_apply, val_main_v2_apply]
  exact congrArg x2 (funext fun a => by match a with | ⟨0, _⟩ => rfl | ⟨1, _⟩ => rfl)

/-- The first hidden layer at (g, n, .). -/
theorem layer0 (g : Fin 64) (n : Fin 4096) :
    (fun j : Fin 256 => val_main_v7 (F := Ideal) x0 x1 x2 (ix3 g n j))
      = wave (affine (fun j k => x1 (ix3 g k j)) (fun j => x2 (ix2 g j)) (fun k => x0 (ix4 (0 : Fin 1) g n k))) := by
  funext j
  rw [val_main_v7_apply, val_main_v6_apply, val_main_v5_apply, val_main_cst_apply, val_main_v4_apply, dot0_at, bias0_at]
  exact congrArg (fun s => Ideal.sin (freq * s)) (affine_comm (fun j k => x1 (ix3 g k j)) (fun j => x2 (ix2 g j)) (fun k => x0 (ix4 (0 : Fin 1) g n k)) j)

/-- The second product at (g, n, j): the sum over the first hidden layer at (g, n, .). -/
theorem dot1_at (g : Fin 64) (n : Fin 4096) (j : Fin 256) :
    val_main_v8 (F := Ideal) x0 x1 x2 x3 (ix3 g n j) = ∑ k : Fin 256, val_main_v7 (F := Ideal) x0 x1 x2 (ix3 g n k) * x3 (ix3 g k j) := by
  rw [val_main_v8_apply]
  refine Finset.sum_congr rfl fun k _ => ?_
  have el : lidx_main_v8 (ix3 g n j) k = ix3 g n k := funext fun a => by match a with | ⟨0, _⟩ => rfl | ⟨1, _⟩ => rfl | ⟨2, _⟩ => rfl
  have er : ridx_main_v8 (ix3 g n j) k = ix3 g k j := funext fun a => by match a with | ⟨0, _⟩ => rfl | ⟨1, _⟩ => rfl | ⟨2, _⟩ => rfl
  rw [el, er]

theorem bias1_at (g : Fin 64) (n : Fin 4096) (j : Fin 256) : val_main_v10 (F := Ideal) x4 (ix3 g n j) = x4 (ix2 g j) := by
  rw [val_main_v10_apply, val_main_v9_apply]
  exact congrArg x4 (funext fun a => by match a with | ⟨0, _⟩ => rfl | ⟨1, _⟩ => rfl)

/-- The second hidden layer at (g, n, .), over the first. -/
theorem layer1 (g : Fin 64) (n : Fin 4096) :
    (fun j : Fin 256 => val_main_v14 (F := Ideal) x0 x1 x2 x3 x4 (ix3 g n j))
      = wave (affine (fun j k => x3 (ix3 g k j)) (fun j => x4 (ix2 g j)) (fun k => val_main_v7 (F := Ideal) x0 x1 x2 (ix3 g n k))) := by
  funext j
  rw [val_main_v14_apply, val_main_v13_apply, val_main_v12_apply, val_main_cst_0_apply, val_main_v11_apply, dot1_at, bias1_at]
  exact congrArg (fun s => Ideal.sin (freq * s)) (affine_comm (fun j k => x3 (ix3 g k j)) (fun j => x4 (ix2 g j)) (fun k => val_main_v7 (F := Ideal) x0 x1 x2 (ix3 g n k)) j)

theorem dot2_at (g : Fin 64) (n : Fin 4096) (j : Fin 256) :
    val_main_v15 (F := Ideal) x0 x1 x2 x3 x4 x5 (ix3 g n j) = ∑ k : Fin 256, val_main_v14 (F := Ideal) x0 x1 x2 x3 x4 (ix3 g n k) * x5 (ix3 g k j) := by
  rw [val_main_v15_apply]
  refine Finset.sum_congr rfl fun k _ => ?_
  have el : lidx_main_v15 (ix3 g n j) k = ix3 g n k := funext fun a => by match a with | ⟨0, _⟩ => rfl | ⟨1, _⟩ => rfl | ⟨2, _⟩ => rfl
  have er : ridx_main_v15 (ix3 g n j) k = ix3 g k j := funext fun a => by match a with | ⟨0, _⟩ => rfl | ⟨1, _⟩ => rfl | ⟨2, _⟩ => rfl
  rw [el, er]

theorem bias2_at (g : Fin 64) (n : Fin 4096) (j : Fin 256) : val_main_v17 (F := Ideal) x6 (ix3 g n j) = x6 (ix2 g j) := by
  rw [val_main_v17_apply, val_main_v16_apply]
  exact congrArg x6 (funext fun a => by match a with | ⟨0, _⟩ => rfl | ⟨1, _⟩ => rfl)

/-- The third hidden layer at (g, n, .), over the second. -/
theorem layer2 (g : Fin 64) (n : Fin 4096) :
    (fun j : Fin 256 => val_main_v21 (F := Ideal) x0 x1 x2 x3 x4 x5 x6 (ix3 g n j))
      = wave (affine (fun j k => x5 (ix3 g k j)) (fun j => x6 (ix2 g j)) (fun k => val_main_v14 (F := Ideal) x0 x1 x2 x3 x4 (ix3 g n k))) := by
  funext j
  rw [val_main_v21_apply, val_main_v20_apply, val_main_v19_apply, val_main_cst_1_apply, val_main_v18_apply, dot2_at, bias2_at]
  exact congrArg (fun s => Ideal.sin (freq * s)) (affine_comm (fun j k => x5 (ix3 g k j)) (fun j => x6 (ix2 g j)) (fun k => val_main_v14 (F := Ideal) x0 x1 x2 x3 x4 (ix3 g n k)) j)

theorem dot3_at (g : Fin 64) (n : Fin 4096) (j : Fin 256) :
    val_main_v22 (F := Ideal) x0 x1 x2 x3 x4 x5 x6 x7 (ix3 g n j) = ∑ k : Fin 256, val_main_v21 (F := Ideal) x0 x1 x2 x3 x4 x5 x6 (ix3 g n k) * x7 (ix3 g k j) := by
  rw [val_main_v22_apply]
  refine Finset.sum_congr rfl fun k _ => ?_
  have el : lidx_main_v22 (ix3 g n j) k = ix3 g n k := funext fun a => by match a with | ⟨0, _⟩ => rfl | ⟨1, _⟩ => rfl | ⟨2, _⟩ => rfl
  have er : ridx_main_v22 (ix3 g n j) k = ix3 g k j := funext fun a => by match a with | ⟨0, _⟩ => rfl | ⟨1, _⟩ => rfl | ⟨2, _⟩ => rfl
  rw [el, er]

theorem bias3_at (g : Fin 64) (n : Fin 4096) (j : Fin 256) : val_main_v24 (F := Ideal) x8 (ix3 g n j) = x8 (ix2 g j) := by
  rw [val_main_v24_apply, val_main_v23_apply]
  exact congrArg x8 (funext fun a => by match a with | ⟨0, _⟩ => rfl | ⟨1, _⟩ => rfl)

/-- The fourth hidden layer at (g, n, .), over the third. -/
theorem layer3 (g : Fin 64) (n : Fin 4096) :
    (fun j : Fin 256 => val_main_v28 (F := Ideal) x0 x1 x2 x3 x4 x5 x6 x7 x8 (ix3 g n j))
      = wave (affine (fun j k => x7 (ix3 g k j)) (fun j => x8 (ix2 g j)) (fun k => val_main_v21 (F := Ideal) x0 x1 x2 x3 x4 x5 x6 (ix3 g n k))) := by
  funext j
  rw [val_main_v28_apply, val_main_v27_apply, val_main_v26_apply, val_main_cst_2_apply, val_main_v25_apply, dot3_at, bias3_at]
  exact congrArg (fun s => Ideal.sin (freq * s)) (affine_comm (fun j k => x7 (ix3 g k j)) (fun j => x8 (ix2 g j)) (fun k => val_main_v21 (F := Ideal) x0 x1 x2 x3 x4 x5 x6 (ix3 g n k)) j)

theorem dot4_at (g : Fin 64) (n : Fin 4096) (p : Fin 3) :
    val_main_v29 (F := Ideal) x0 x1 x2 x3 x4 x5 x6 x7 x8 x9 (ix3 g n p) = ∑ k : Fin 256, val_main_v28 (F := Ideal) x0 x1 x2 x3 x4 x5 x6 x7 x8 (ix3 g n k) * x9 (ix3 g k p) := by
  rw [val_main_v29_apply]
  refine Finset.sum_congr rfl fun k _ => ?_
  have el : lidx_main_v29 (ix3 g n p) k = ix3 g n k := funext fun a => by match a with | ⟨0, _⟩ => rfl | ⟨1, _⟩ => rfl | ⟨2, _⟩ => rfl
  have er : ridx_main_v29 (ix3 g n p) k = ix3 g k p := funext fun a => by match a with | ⟨0, _⟩ => rfl | ⟨1, _⟩ => rfl | ⟨2, _⟩ => rfl
  rw [el, er]

theorem bias4_at (g : Fin 64) (n : Fin 4096) (p : Fin 3) : val_main_v31 (F := Ideal) x10 (ix3 g n p) = x10 (ix2 g p) := by
  rw [val_main_v31_apply, val_main_v30_apply]
  exact congrArg x10 (funext fun a => by match a with | ⟨0, _⟩ => rfl | ⟨1, _⟩ => rfl)

/-- The output layer at (g, n, .), over the fourth hidden layer. -/
theorem layer4 (g : Fin 64) (n : Fin 4096) :
    (fun p : Fin 3 => val_main_v32 (F := Ideal) x0 x1 x2 x3 x4 x5 x6 x7 x8 x9 x10 (ix3 g n p))
      = affine (fun p k => x9 (ix3 g k p)) (fun p => x10 (ix2 g p)) (fun k => val_main_v28 (F := Ideal) x0 x1 x2 x3 x4 x5 x6 x7 x8 (ix3 g n k)) := by
  funext p
  rw [val_main_v32_apply, dot4_at, bias4_at]
  exact affine_comm (fun p k => x9 (ix3 g k p)) (fun p => x10 (ix2 g p)) (fun k => val_main_v28 (F := Ideal) x0 x1 x2 x3 x4 x5 x6 x7 x8 (ix3 g n k)) p

/-- The reference's result before its last reshaping is the grouped network's result, array for array. -/
theorem ref_eq_outputs : val_main_v32 (F := Ideal) x0 x1 x2 x3 x4 x5 x6 x7 x8 x9 x10 = outputs x0 x1 x2 x3 x4 x5 x6 x7 x8 x9 x10 := by
  funext i
  obtain ⟨g, n, p, rfl⟩ : ∃ (g : Fin 64) (n : Fin 4096) (p : Fin 3), i = ix3 g n p := ⟨i 0, i 1, i 2, eq_ix3 i⟩
  refine (congrFun (layer4 x0 x1 x2 x3 x4 x5 x6 x7 x8 x9 x10 g n) p).trans ?_
  rw [layer3, layer2, layer1, layer0]
  rfl

end Cert.ReferenceIdeal.RefValue

end
-- ==== Proof.lean ====
/-
  The kernel computes the grouped sine network of its reference.

  Both programs take points [1, 64, 4096, 2] and, for five layers, weights [64, I, O] and biases [64, O], and compute for
  every group g and point n the network  A4 (s (A3 (s (A2 (s (A1 (s (A0 x)))))))),  s v = sin (30 * v),
  A w b x = w x + b  (Proof/Siren.lean), giving [1, 64, 4096, 3].

  The reference contracts each layer's input with the weights for all groups and points at once, in the arguments'
  own layout.  The kernel's host part swaps the last two axes of the points and of every weight array and gives every
  bias a trailing unit axis; its call then runs over sixteen grid points, each holding four groups, and computes each
  group's layers as 2-D products W h with the 4096 points along the last axis; the host swaps the result's last two axes
  back.  On the extended reals a change of float format is the identity, a product accumulated into the zero array is
  the plain sum over the contracted index, and the two sines are one function, so both results are the same function of
  the arguments, entry by entry (Proof/Outputs.lean): the kernel's by Proof/KernelGroup.lean (one group's layers, column
  by column), Proof/KernelBlock.lean (the stored block at an entry), Proof/KernelArrays.lean (the operands as launched),
  Proof/KernelValue.lean (blocks to array, and the run); the reference's by Proof/RefValue.lean, where each product is
  written input first, the same product.  No law used needs the inputs finite: only that multiplication commutes.

  The three frames are the generated ones (the reference's is its generated run with the result dropped); the
  idealization changed nothing in the kernel, so preserves is trivial.
-/
import proofs.«424906_j73607149519468_4_alg».proof.Defs
import proofs.«424906_j73607149519468_4_alg».proof.Proof.Gen.Kernel
import proofs.«424906_j73607149519468_4_alg».proof.Proof.Gen.Kernel.Skeleton
import proofs.«424906_j73607149519468_4_alg».proof.Proof.Gen.Kernel.Launch
import proofs.«424906_j73607149519468_4_alg».proof.Proof.Gen.Kernel.Points
import proofs.«424906_j73607149519468_4_alg».proof.Proof.Gen.Kernel.Frame
import proofs.«424906_j73607149519468_4_alg».proof.Proof.Gen.KernelIdeal
import proofs.«424906_j73607149519468_4_alg».proof.Proof.Gen.KernelIdeal.Skeleton
import proofs.«424906_j73607149519468_4_alg».proof.Proof.Gen.KernelIdeal.Launch
import proofs.«424906_j73607149519468_4_alg».proof.Proof.Gen.KernelIdeal.Points
import proofs.«424906_j73607149519468_4_alg».proof.Proof.Gen.KernelIdeal.Frame
import proofs.«424906_j73607149519468_4_alg».proof.Proof.Gen.ReferenceIdeal
import proofs.«424906_j73607149519468_4_alg».proof.Proof.Gen.Pre_finite_inputs
import proofs.«424906_j73607149519468_4_alg».proof.Proof.Gen.ReferenceIdeal.Run
import proofs.«424906_j73607149519468_4_alg».proof.Proof.Gen.ReferenceIdeal.Read
import proofs.«424906_j73607149519468_4_alg».proof.Proof.KernelValue
import proofs.«424906_j73607149519468_4_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the network's result of the arguments, with a leading unit axis; the memories agree on the
    arguments, so the two results are equal. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v33_eq]
  unfold Cert.ReferenceIdeal.Read.val_main_v33
  rw [Cert.ReferenceIdeal.RefValue.ref_eq_outputs, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
